-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x128000 : Shape := ⟨2, ![2, 128000]⟩
abbrev S128000x128 : Shape := ⟨2, ![128000, 128]⟩
abbrev S640x1280 : Shape := ⟨2, ![640, 1280]⟩
abbrev S1280 : Shape := ⟨1, ![1280]⟩
abbrev S1280x1280 : Shape := ⟨2, ![1280, 1280]⟩
abbrev S1792x640 : Shape := ⟨2, ![1792, 640]⟩
abbrev S640 : Shape := ⟨1, ![640]⟩
abbrev S640x512 : Shape := ⟨2, ![640, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S128000x128 : S_.BroadcastsInDim S128000x128 (![] : Fin 0 → Fin S128000x128.rank)
  reducesTo_S128000x128_S_d0_1 : S128000x128.ReducesTo [0, 1] S_
  bcast_S_S640x1280 : S_.BroadcastsInDim S640x1280 (![] : Fin 0 → Fin S640x1280.rank)
  reducesTo_S640x1280_S_d0_1 : S640x1280.ReducesTo [0, 1] S_
  bcast_S_S1280 : S_.BroadcastsInDim S1280 (![] : Fin 0 → Fin S1280.rank)
  reducesTo_S1280_S_d0 : S1280.ReducesTo [0] S_
  bcast_S_S1280x1280 : S_.BroadcastsInDim S1280x1280 (![] : Fin 0 → Fin S1280x1280.rank)
  reducesTo_S1280x1280_S_d0_1 : S1280x1280.ReducesTo [0, 1] S_
  bcast_S_S1792x640 : S_.BroadcastsInDim S1792x640 (![] : Fin 0 → Fin S1792x640.rank)
  reducesTo_S1792x640_S_d0_1 : S1792x640.ReducesTo [0, 1] S_
  bcast_S_S640 : S_.BroadcastsInDim S640 (![] : Fin 0 → Fin S640.rank)
  reducesTo_S640_S_d0 : S640.ReducesTo [0] S_
  bcast_S_S640x512 : S_.BroadcastsInDim S640x512 (![] : Fin 0 → Fin S640x512.rank)
  reducesTo_S640x512_S_d0_1 : S640x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S640 .f32) (main_arg9 : FVec F S640x512 .f32) (main_arg10 : FVec F S512 .f32) (main_v33 : IVec S_ 1) : IVec S_ 1 :=
  let main_v34 : FVec F S640 .f32 := Host.absf main_arg8
  let main_cst_12 : FVec F S_ .f32 := constant S_ .f32 0x7F800000#32
  let main_v35 : FVec F S640 .f32 := broadcastInDim S640 ![] bcast_S_S640 main_cst_12
  let main_v36 : IVec S640 1 := cmpf .olt main_v34 main_v35
  let main_c_13 : IVec S_ 1 := constantI S_ 1 1#1
  let main_v37 : IVec S_ 1 := (fun x v => Host.reduce IntOp.andi x v reducesTo_S640_S_d0 h_S_) main_v36 main_c_13
  let main_v38 : IVec S_ 1 := andi main_v33 main_v37
  let main_v39 : FVec F S640x512 .f32 := Host.absf main_arg9
  let main_cst_14 : FVec F S_ .f32 := constant S_ .f32 0x7F800000#32
  let main_v40 : FVec F S640x512 .f32 := broadcastInDim S640x512 ![] bcast_S_S640x512 main_cst_14
  let main_v41 : IVec S640x512 1 := cmpf .olt main_v39 main_v40
  let main_c_15 : IVec S_ 1 := constantI S_ 1 1#1
  let main_v42 : IVec S_ 1 := (fun x v => Host.reduce IntOp.andi x v reducesTo_S640x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg5 : FVec F S1280x1280 .f32) (main_arg6 : FVec F S1280 .f32) (main_arg7 : FVec F S1792x640 .f32) (main_arg8 : FVec F S640 .f32) (main_arg9 : FVec F S640x512 .f32) (main_arg10 : FVec F S512 .f32) (main_v13 : IVec S_ 1) (main_v16 : IVec S1280 1) : IVec S_ 1 :=
  let main_c_5 : IVec S_ 1 := constantI S_ 1 1#1
  let main_v17 : IVec S_ 1 := (fun x v => Host.reduce IntOp.andi x v reducesTo_S1280_S_d0 h_S_) main_v16 main_c_5
  let main_v18 : IVec S_ 1 := andi main_v13 main_v17
  let main_v19 : FVec F S1280x1280 .f32 := Host.absf main_arg5
  let main_cst_6 : FVec F S_ .f32 := constant S_ .f32 0x7F800000#32
  let main_v20 : FVec F S1280x1280 .f32 := broadcastInDim S1280x1280 ![] bcast_S_S1280x1280 main_cst_6
  let main_v21 : IVec S1280x1280 1 := cmpf .olt main_v19 main_v20
  let main_c_7 : IVec S_ 1 := constantI S_ 1 1#1
  let main_v22 : IVec S_ 1 := (fun x v => Host.reduce IntOp.andi x v reducesTo_S1280x1280_S_d0_1 h_S_) main_v21 main_c_7
  let main_v23 : IVec S_ 1 := andi main_v18 main_v22
  let main_v24 : FVec F S1280 .f32 := Host.absf main_arg6
  let main_cst_8 : FVec F S_ .f32 := constant S_ .f32 0x7F800000#32
  let main_v25 : FVec F S1280 .f32 := broadcastInDim S1280 ![] bcast_S_S1280 main_cst_8
  let main_v26 : IVec S1280 1 := cmpf .olt main_v24 main_v25
  let main_c_9 : IVec S_ 1 := constantI S_ 1 1#1
  let main_v27 : IVec S_ 1 := (fun x v => Host.reduce IntOp.andi x v reducesTo_S1280_S_d0 h_S_) main_v26 main_c_9
  let main_v28 : IVec S_ 1 := andi main_v23 main_v27
  let main_v29 : FVec F S1792x640 .f32 := Host.absf main_arg7
  let main_cst_10 : FVec F S_ .f32 := constant S_ .f32 0x7F800000#32
  let main_v30 : FVec F S1792x640 .f32 := broadcastInDim S1792x640 ![] bcast_S_S1792x640 main_cst_10
  let main_v31 : IVec S1792x640 1 := cmpf .olt main_v29 main_v30
  let main_c_11 : IVec S_ 1 := constantI S_ 1 1#1
  let main_v32 : IVec S_ 1 := (fun x v => Host.reduce IntOp.andi x v reducesTo_S1792x640_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x512 .f32) (main_arg1 : IVec S2x128000 32) (main_arg2 : FVec F S128000x128 .f32) (main_arg3 : FVec F S640x1280 .f32) (main_arg4 : FVec F S1280 .f32) (main_arg5 : FVec F S1280x1280 .f32) (main_arg6 : FVec F S1280 .f32) (main_arg7 : FVec F S1792x640 .f32) (main_arg8 : FVec F S640 .f32) (main_arg9 : FVec F S640x512 .f32) (main_arg10 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S128000x128 .f32 := Host.absf main_arg2
  let main_cst_0 : FVec F S_ .f32 := constant S_ .f32 0x7F800000#32
  let main_v5 : FVec F S128000x128 .f32 := broadcastInDim S128000x128 ![] bcast_S_S128000x128 main_cst_0
  let main_v6 : IVec S128000x128 1 := cmpf .olt main_v4 main_v5
  let main_c_1 : IVec S_ 1 := constantI S_ 1 1#1
  let main_v7 : IVec S_ 1 := (fun x v => Host.reduce IntOp.andi x v reducesTo_S128000x128_S_d0_1 h_S_) main_v6 main_c_1
  let main_v8 : IVec S_ 1 := andi main_v3 main_v7
  let main_v9 : FVec F S640x1280 .f32 := Host.absf main_arg3
  let main_cst_2 : FVec F S_ .f32 := constant S_ .f32 0x7F800000#32
  let main_v10 : FVec F S640x1280 .f32 := broadcastInDim S640x1280 ![] bcast_S_S640x1280 main_cst_2
  let main_v11 : IVec S640x1280 1 := cmpf .olt main_v9 main_v10
  let main_c_3 : IVec S_ 1 := constantI S_ 1 1#1
  let main_v12 : IVec S_ 1 := (fun x v => Host.reduce IntOp.andi x v reducesTo_S640x1280_S_d0_1 h_S_) main_v11 main_c_3
  let main_v13 : IVec S_ 1 := andi main_v8 main_v12
  let main_v14 : FVec F S1280 .f32 := Host.absf main_arg4
  let main_cst_4 : FVec F S_ .f32 := constant S_ .f32 0x7F800000#32
  let main_v15 : FVec F S1280 .f32 := broadcastInDim S1280 ![] bcast_S_S1280 main_cst_4
  let main_v16 : IVec S1280 1 := cmpf .olt main_v14 main_v15
  fn_part1 (F := F) main_arg5 main_arg6 main_arg7 main_arg8 main_arg9 main_arg10 main_v13 main_v16
-- ==== Kernel.lean ====
abbrev S50000x512 : Shape := ⟨2, ![50000, 512]⟩
abbrev S2x128000 : Shape := ⟨2, ![2, 128000]⟩
abbrev S128000x128 : Shape := ⟨2, ![128000, 128]⟩
abbrev S640x1280 : Shape := ⟨2, ![640, 1280]⟩
abbrev S1280 : Shape := ⟨1, ![1280]⟩
abbrev S1280x1280 : Shape := ⟨2, ![1280, 1280]⟩
abbrev S1792x640 : Shape := ⟨2, ![1792, 640]⟩
abbrev S640 : Shape := ⟨1, ![640]⟩
abbrev S640x512 : Shape := ⟨2, ![640, 512]⟩
abbrev S512 : Shape := ⟨1, ![512]⟩
abbrev S1x128000 : Shape := ⟨2, ![1, 128000]⟩
abbrev S128000 : Shape := ⟨1, ![128000]⟩
abbrev S_ : Shape := ⟨0, ![]⟩
abbrev S128000x1 : Shape := ⟨2, ![128000, 1]⟩
abbrev S128000x512 : Shape := ⟨2, ![128000, 512]⟩
abbrev S128000x640 : Shape := ⟨2, ![128000, 640]⟩
abbrev S1x1280 : Shape := ⟨2, ![1, 1280]⟩
abbrev S128000x1280 : Shape := ⟨2, ![128000, 1280]⟩
abbrev S512x640 : Shape := ⟨2, ![512, 640]⟩
abbrev S512x1280 : Shape := ⟨2, ![512, 1280]⟩
abbrev S50000 : Shape := ⟨1, ![50000]⟩
abbrev S50000x1280 : Shape := ⟨2, ![50000, 1280]⟩
abbrev S50000x1 : Shape := ⟨2, ![50000, 1]⟩
abbrev S50000x1792 : Shape := ⟨2, ![50000, 1792]⟩
abbrev S1x640 : Shape := ⟨2, ![1, 640]⟩
abbrev S1x512 : Shape := ⟨2, ![1, 512]⟩
abbrev S400x1792 : Shape := ⟨2, ![400, 1792]⟩
abbrev S400x512 : Shape := ⟨2, ![400, 512]⟩
abbrev S400x640 : Shape := ⟨2, ![400, 640]⟩

abbrev nBuf : Space → Nat
  | .hbm => 54
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S2x128000, .i32⟩
  | .hbm, ⟨2, _⟩ => ⟨S128000x128, .f32⟩
  | .hbm, ⟨3, _⟩ => ⟨S640x1280, .f32⟩
  | .hbm, ⟨4, _⟩ => ⟨S1280, .f32⟩
  | .hbm, ⟨5, _⟩ => ⟨S1280x1280, .f32⟩
  | .hbm, ⟨6, _⟩ => ⟨S1280, .f32⟩
  | .hbm, ⟨7, _⟩ => ⟨S1792x640, .f32⟩
  | .hbm, ⟨8, _⟩ => ⟨S640, .f32⟩
  | .hbm, ⟨9, _⟩ => ⟨S640x512, .f32⟩
  | .hbm, ⟨10, _⟩ => ⟨S512, .f32⟩
  | .hbm, ⟨11, _⟩ => ⟨S1x128000, .i32⟩
  | .hbm, ⟨12, _⟩ => ⟨S128000, .i32⟩
  | .hbm, ⟨13, _⟩ => ⟨S1x128000, .i32⟩
  | .hbm, ⟨14, _⟩ => ⟨S128000, .i32⟩
  | .hbm, ⟨15, _⟩ => ⟨S_, .i32⟩
  | .hbm, ⟨16, _⟩ => ⟨S128000, .i32⟩
  | .hbm, ⟨17, _⟩ => ⟨S128000, .i1⟩
  | .hbm, ⟨18, _⟩ => ⟨S_, .i32⟩
  | .hbm, ⟨19, _⟩ => ⟨S128000, .i32⟩
  | .hbm, ⟨20, _⟩ => ⟨S128000, .i32⟩
  | .hbm, ⟨21, _⟩ => ⟨S128000, .i32⟩
  | .hbm, ⟨22, _⟩ => ⟨S128000x1, .i32⟩
  | .hbm, ⟨23, _⟩ => ⟨S128000x512, .f32⟩
  | .hbm, ⟨24, _⟩ => ⟨S128000x640, .f32⟩
  | .hbm, ⟨25, _⟩ => ⟨S128000x640, .bf16⟩
  | .hbm, ⟨26, _⟩ => ⟨S640x1280, .bf16⟩
  | .hbm, ⟨27, _⟩ => ⟨S1280x1280, .bf16⟩
  | .hbm, ⟨28, _⟩ => ⟨S1x1280, .f32⟩
  | .hbm, ⟨29, _⟩ => ⟨S1x1280, .f32⟩
  | .hbm, ⟨30, _⟩ => ⟨S128000x1280, .f32⟩
  | .hbm, ⟨31, _⟩ => ⟨S_, .f32⟩
  | .hbm, ⟨32, _⟩ => ⟨S128000, .f32⟩
  | .hbm, ⟨33, _⟩ => ⟨S_, .f32⟩
  | .hbm, ⟨34, _⟩ => ⟨S50000, .f32⟩
  | .hbm, ⟨35, _⟩ => ⟨S128000x1, .i32⟩
  | .hbm, ⟨36, _⟩ => ⟨S50000, .f32⟩
  | .hbm, ⟨37, _⟩ => ⟨S_, .f32⟩
  | .hbm, ⟨38, _⟩ => ⟨S50000x1280, .f32⟩
  | .hbm, ⟨39, _⟩ => ⟨S128000x1, .i32⟩
  | .hbm, ⟨40, _⟩ => ⟨S50000x1280, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x1280, .f32⟩
  | .hbm, ⟨46, _⟩ => ⟨S50000x1280, .f32⟩
  | .hbm, ⟨47, _⟩ => ⟨S50000x1792, .f32⟩
  | .hbm, ⟨48, _⟩ => ⟨S50000x1792, .bf16⟩
  | .hbm, ⟨49, _⟩ => ⟨S1792x640, .bf16⟩
  | .hbm, ⟨50, _⟩ => ⟨S640x512, .bf16⟩
  | .hbm, ⟨51, _⟩ => ⟨S1x640, .f32⟩
  | .hbm, ⟨52, _⟩ => ⟨S1x512, .f32⟩
  | .hbm, ⟨53, _⟩ => ⟨S50000x512, .f32⟩
  | .local _ .vmem, ⟨0, _⟩ => ⟨S512x640, .bf16⟩
  | .local _ .vmem, ⟨1, _⟩ => ⟨S512x640, .bf16⟩
  | .local _ .vmem, ⟨2, _⟩ => ⟨S640x1280, .bf16⟩
  | .local _ .vmem, ⟨3, _⟩ => ⟨S1x1280, .f32⟩
  | .local _ .vmem, ⟨4, _⟩ => ⟨S1280x1280, .bf16⟩
  | .local _ .vmem, ⟨5, _⟩ => ⟨S1x1280, .f32⟩
  | .local _ .vmem, ⟨6, _⟩ => ⟨S512x1280, .f32⟩
  | .local _ .vmem, ⟨7, _⟩ => ⟨S512x1280, .f32⟩
  | .local _ .vmem, ⟨8, _⟩ => ⟨S400x1792, .bf16⟩
  | .local _ .vmem, ⟨9, _⟩ => ⟨S400x1792, .bf16⟩
  | .local _ .vmem, ⟨10, _⟩ => ⟨S1792x640, .bf16⟩
  | .local _ .vmem, ⟨11, _⟩ => ⟨S1x640, .f32⟩
  | .local _ .vmem, ⟨12, _⟩ => ⟨S640x512, .bf16⟩
  | .local _ .vmem, ⟨13, _⟩ => ⟨S1x512, .f32⟩
  | .local _ .vmem, ⟨14, _⟩ => ⟨S400x512, .f32⟩
  | .local _ .vmem, ⟨15, _⟩ => ⟨S400x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x1792 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1792x640 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x640 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S640x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x128000_S1x128000_0_0 : S2x128000.Slices ![0, 0] S1x128000
  shapeCasts_S1x128000_S128000 : S1x128000.ShapeCasts S128000
  slices_S2x128000_S1x128000_1_0 : S2x128000.Slices ![1, 0] S1x128000
  bcast_S_S128000 : S_.BroadcastsInDim S128000 (![] : Fin 0 → Fin S128000.rank)
  bcast_S128000_S128000x1_0 : S128000.BroadcastsInDim S128000x1 (![0] : Fin 1 → Fin S128000x1.rank)
  concatenates_S128000x512_S128000x128_S128000x640_d1 : Shape.Concatenates [S128000x512, S128000x128] S128000x640 1
  bitsLt_bf16_f32 : FTy.bits .bf16 < FTy.bits .f32
  shapeCasts_S1280_S1x1280 : S1280.ShapeCasts S1x1280
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640x1280_S640x1280_0_0 : ∀ a, (![0, 0] : Fin 2 → Nat) a + S640x1280.size a ≤ S640x1280.size a
  h_S640x1280 : 0 < S640x1280.numel
  shapeCasts_S640x1280_S640x1280 : S640x1280.ShapeCasts S640x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S512x1280 : S1x1280.Broadcasts S512x1280
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  inb_S512x1280_S512x1280_0_0 : ∀ a, (![0, 0] : Fin 2 → Nat) a + S512x1280.size a ≤ S512x1280.size a
  h_S512x1280 : 0 < S512x1280.numel
  bcast_S_S50000 : S_.BroadcastsInDim S50000 (![] : Fin 0 → Fin S50000.rank)
  bcast_S_S50000x1280 : S_.BroadcastsInDim S50000x1280 (![] : Fin 0 → Fin S50000x1280.rank)
  bcast_S50000_S50000x1_0 : S50000.BroadcastsInDim S50000x1 (![0] : Fin 1 → Fin S50000x1.rank)
  bcast_S50000x1_S50000x1280_0_1 : S50000x1.BroadcastsInDim S50000x1280 (![0, 1] : Fin 2 → Fin S50000x1280.rank)
  concatenates_S50000x512_S50000x1280_S50000x1792_d1 : Shape.Concatenates [S50000x512, S50000x1280] S50000x1792 1
  shapeCasts_S640_S1x640 : S640.ShapeCasts S1x640
  shapeCasts_S512_S1x512 : S512.ShapeCasts S1x512
  inb_S400x1792_S400x1792_0_0 : ∀ a, (![0, 0] : Fin 2 → Nat) a + S400x1792.size a ≤ S400x1792.size a
  h_S400x1792 : 0 < S400x1792.numel
  shapeCasts_S400x1792_S400x1792 : S400x1792.ShapeCasts S400x1792
  inb_S1792x640_S1792x640_0_0 : ∀ a, (![0, 0] : Fin 2 → Nat) a + S1792x640.size a ≤ S1792x640.size a
  h_S1792x640 : 0 < S1792x640.numel
  shapeCasts_S1792x640_S1792x640 : S1792x640.ShapeCasts S1792x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S400x640 : S1x640.Broadcasts S400x640
  inb_S640x512_S640x512_0_0 : ∀ a, (![0, 0] : Fin 2 → Nat) a + S640x512.size a ≤ S640x512.size a
  h_S640x512 : 0 < S640x512.numel
  shapeCasts_S640x512_S640x512 : S640x512.ShapeCasts S640x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S400x512_S400x512_0_0 : ∀ a, (![0, 0] : Fin 2 → Nat) a + S400x512.size a ≤ S400x512.size a
  h_S400x512 : 0 < S400x512.numel
  gather_S50000x512_S128000x1_S128000x512_1_0_n_n_0_1_1512_wf : GatherDims.WF S50000x512 S128000x1 S128000x512 [1] [0] [] [0] [] 1 ![1, 512]
  dot_S512x640_S640x1280_S512x1280_1_0_0_1_n_n_wf : DotDims.WF S512x640 S640x1280 S512x1280 [1] [0] [0] [1] [] []
  dot_S512x1280_S1280x1280_S512x1280_1_0_0_1_n_n_wf : DotDims.WF S512x1280 S1280x1280 S512x1280 [1] [0] [0] [1] [] []
  scatter_S50000_S128000x1_S128000_n_0_0_1_wf : ScatterDims.WF S50000 S128000x1 S128000 [] [0] [0] 1
  scatter_S50000x1280_S128000x1_S128000x1280_1_0_0_1_wf : ScatterDims.WF S50000x1280 S128000x1 S128000x1280 [1] [0] [0] 1
  dot_S400x1792_S1792x640_S400x640_1_0_0_1_n_n_wf : DotDims.WF S400x1792 S1792x640 S400x640 [1] [0] [0] [1] [] []
  dot_S400x640_S640x512_S400x512_1_0_0_1_n_n_wf : DotDims.WF S400x640 S640x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x640.size a ≤ S128000x640.size a
  hwx0_0 : ∀ i : grid0.Coords, EltTy.bits .bf16 = 32 ∨ (Rect.block (s := S128000x640) S512x640.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x1280.size a ≤ S640x1280.size a
  hwx0_1 : ∀ i : grid0.Coords, EltTy.bits .bf16 = 32 ∨ (Rect.block (s := S640x1280) S640x1280.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x1280.size a
  hwx0_2 : ∀ i : grid0.Coords, EltTy.bits .f32 = 32 ∨ (Rect.block (s := S1x1280) S1x1280.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x1280.size a ≤ S1280x1280.size a
  hwx0_3 : ∀ i : grid0.Coords, EltTy.bits .bf16 = 32 ∨ (Rect.block (s := S1280x1280) S1280x1280.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1280.size a ≤ S1x1280.size a
  hwx0_4 : ∀ i : grid0.Coords, EltTy.bits .f32 = 32 ∨ (Rect.block (s := S1x1280) S1x1280.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1280.size a ≤ S128000x1280.size a
  hwx0_5 : ∀ i : grid0.Coords, EltTy.bits .f32 = 32 ∨ (Rect.block (s := S128000x1280) S512x1280.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x1792.size a ≤ S50000x1792.size a
  hwx1_0 : ∀ i : grid1.Coords, EltTy.bits .bf16 = 32 ∨ (Rect.block (s := S50000x1792) S400x1792.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1792x640.size a ≤ S1792x640.size a
  hwx1_1 : ∀ i : grid1.Coords, EltTy.bits .bf16 = 32 ∨ (Rect.block (s := S1792x640) S1792x640.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x640.size a ≤ S1x640.size a
  hwx1_2 : ∀ i : grid1.Coords, EltTy.bits .f32 = 32 ∨ (Rect.block (s := S1x640) S1x640.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S640x512.size a ≤ S640x512.size a
  hwx1_3 : ∀ i : grid1.Coords, EltTy.bits .bf16 = 32 ∨ (Rect.block (s := S640x512) S640x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x512.size a ≤ S50000x512.size a
  hwx1_5 : ∀ i : grid1.Coords, EltTy.bits .f32 = 32 ∨ (Rect.block (s := S50000x512) S400x512.size (cc1_transform_5 i) (hinb1_5 i)).WholeWords (EltTy.packing .f32)

variable [Facts₀]

def gather_S50000x512_S128000x1_S128000x512_1_0_n_n_0_1_1512 : GatherDims S50000x512 S128000x1 S128000x512 where
  offsetDims := [1]
  collapsedSliceDims := [0]
  operandBatchingDims := []
  startIndicesBatchingDims := []
  startIndexMap := [0]
  indexVectorDim := 1
  sliceSizes := ![1, 512]
  wf := gather_S50000x512_S128000x1_S128000x512_1_0_n_n_0_1_1512_wf
def dot_S512x640_S640x1280_S512x1280_1_0_0_1_n_n : DotDims S512x640 S640x1280 S512x1280 where
  lhsContracting := [1]
  rhsContracting := [0]
  lhsNonContracting := [0]
  rhsNonContracting := [1]
  lhsBatch := []
  rhsBatch := []
  wf := dot_S512x640_S640x1280_S512x1280_1_0_0_1_n_n_wf
def dot_S512x1280_S1280x1280_S512x1280_1_0_0_1_n_n : DotDims S512x1280 S1280x1280 S512x1280 where
  lhsContracting := [1]
  rhsContracting := [0]
  lhsNonContracting := [0]
  rhsNonContracting := [1]
  lhsBatch := []
  rhsBatch := []
  wf := dot_S512x1280_S1280x1280_S512x1280_1_0_0_1_n_n_wf
def scatter_S50000_S128000x1_S128000_n_0_0_1 : ScatterDims S50000 S128000x1 S128000 where
  updateWindowDims := []
  insertedWindowDims := [0]
  scatterDimsToOperandDims := [0]
  indexVectorDim := 1
  wf := scatter_S50000_S128000x1_S128000_n_0_0_1_wf
def scatter_S50000x1280_S128000x1_S128000x1280_1_0_0_1 : ScatterDims S50000x1280 S128000x1 S128000x1280 where
  updateWindowDims := [1]
  insertedWindowDims := [0]
  scatterDimsToOperandDims := [0]
  indexVectorDim := 1
  wf := scatter_S50000x1280_S128000x1_S128000x1280_1_0_0_1_wf
def dot_S400x1792_S1792x640_S400x640_1_0_0_1_n_n : DotDims S400x1792 S1792x640 S400x640 where
  lhsContracting := [1]
  rhsContracting := [0]
  lhsNonContracting := [0]
  rhsNonContracting := [1]
  lhsBatch := []
  rhsBatch := []
  wf := dot_S400x1792_S1792x640_S400x640_1_0_0_1_n_n_wf
def dot_S400x640_S640x512_S400x512_1_0_0_1_n_n : DotDims S400x640 S640x512 S400x512 where
  lhsContracting := [1]
  rhsContracting := [0]
  lhsNonContracting := [0]
  rhsNonContracting := [1]
  lhsBatch := []
  rhsBatch := []
  wf := dot_S400x640_S640x512_S400x512_1_0_0_1_n_n_wf

abbrev win0_0 : Pipeline.Window sig grid0 :=
  Pipeline.Window.ofSpec (Memref.whole main_v12) S512x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S640x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1280x1280.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1280.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S512x1280.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S400x1792.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1792x640.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x640.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S640x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S400x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x128000 : Shape := ⟨2, ![2, 128000]⟩
abbrev S128000x128 : Shape := ⟨2, ![128000, 128]⟩
abbrev S640x1280 : Shape := ⟨2, ![640, 1280]⟩
abbrev S1280 : Shape := ⟨1, ![1280]⟩
abbrev S1280x1280 : Shape := ⟨2, ![1280, 1280]⟩
abbrev S1792x640 : Shape := ⟨2, ![1792, 640]⟩
abbrev S640 : Shape := ⟨1, ![640]⟩
abbrev S640x512 : Shape := ⟨2, ![640, 512]⟩
abbrev S512 : Shape := ⟨1, ![512]⟩
abbrev S1x128000 : Shape := ⟨2, ![1, 128000]⟩
abbrev S128000 : Shape := ⟨1, ![128000]⟩
abbrev S_ : Shape := ⟨0, ![]⟩
abbrev S128000x1 : Shape := ⟨2, ![128000, 1]⟩
abbrev S128000x512 : Shape := ⟨2, ![128000, 512]⟩
abbrev S128000x640 : Shape := ⟨2, ![128000, 640]⟩
abbrev S128000x1280 : Shape := ⟨2, ![128000, 1280]⟩
abbrev S1x1280 : Shape := ⟨2, ![1, 1280]⟩
abbrev S50000x1280 : Shape := ⟨2, ![50000, 1280]⟩
abbrev S50000 : Shape := ⟨1, ![50000]⟩
abbrev S50000x1 : Shape := ⟨2, ![50000, 1]⟩
abbrev S50000x1792 : Shape := ⟨2, ![50000, 1792]⟩
abbrev S50000x640 : Shape := ⟨2, ![50000, 640]⟩
abbrev S1x640 : Shape := ⟨2, ![1, 640]⟩
abbrev S1x512 : Shape := ⟨2, ![1, 512]⟩

abbrev nBuf : Space → Nat
  | .hbm => 64
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x128000, .i32⟩
  | .hbm, ⟨2, _⟩ => ⟨S128000x128, .f32⟩
  | .hbm, ⟨3, _⟩ => ⟨S640x1280, .f32⟩
  | .hbm, ⟨4, _⟩ => ⟨S1280, .f32⟩
  | .hbm, ⟨5, _⟩ => ⟨S1280x1280, .f32⟩
  | .hbm, ⟨6, _⟩ => ⟨S1280, .f32⟩
  | .hbm, ⟨7, _⟩ => ⟨S1792x640, .f32⟩
  | .hbm, ⟨8, _⟩ => ⟨S640, .f32⟩
  | .hbm, ⟨9, _⟩ => ⟨S640x512, .f32⟩
  | .hbm, ⟨10, _⟩ => ⟨S512, .f32⟩
  | .hbm, ⟨11, _⟩ => ⟨S1x128000, .i32⟩
  | .hbm, ⟨12, _⟩ => ⟨S128000, .i32⟩
  | .hbm, ⟨13, _⟩ => ⟨S1x128000, .i32⟩
  | .hbm, ⟨14, _⟩ => ⟨S128000, .i32⟩
  | .hbm, ⟨15, _⟩ => ⟨S_, .i32⟩
  | .hbm, ⟨16, _⟩ => ⟨S128000, .i32⟩
  | .hbm, ⟨17, _⟩ => ⟨S128000, .i1⟩
  | .hbm, ⟨18, _⟩ => ⟨S_, .i32⟩
  | .hbm, ⟨19, _⟩ => ⟨S128000, .i32⟩
  | .hbm, ⟨20, _⟩ => ⟨S128000, .i32⟩
  | .hbm, ⟨21, _⟩ => ⟨S128000, .i32⟩
  | .hbm, ⟨22, _⟩ => ⟨S128000x1, .i32⟩
  | .hbm, ⟨23, _⟩ => ⟨S128000x512, .f32⟩
  | .hbm, ⟨24, _⟩ => ⟨S128000x640, .f32⟩
  | .hbm, ⟨25, _⟩ => ⟨S128000x1280, .f32⟩
  | .hbm, ⟨26, _⟩ => ⟨S1x1280, .f32⟩
  | .hbm, ⟨27, _⟩ => ⟨S128000x1280, .f32⟩
  | .hbm, ⟨28, _⟩ => ⟨S128000x1280, .f32⟩
  | .hbm, ⟨29, _⟩ => ⟨S_, .f32⟩
  | .hbm, ⟨30, _⟩ => ⟨S128000x1280, .f32⟩
  | .hbm, ⟨31, _⟩ => ⟨S128000x1280, .f32⟩
  | .hbm, ⟨32, _⟩ => ⟨S128000x1280, .f32⟩
  | .hbm, ⟨33, _⟩ => ⟨S1x1280, .f32⟩
  | .hbm, ⟨34, _⟩ => ⟨S128000x1280, .f32⟩
  | .hbm, ⟨35, _⟩ => ⟨S128000x1280, .f32⟩
  | .hbm, ⟨36, _⟩ => ⟨S_, .f32⟩
  | .hbm, ⟨37, _⟩ => ⟨S50000x1280, .f32⟩
  | .hbm, ⟨38, _⟩ => ⟨S128000x1, .i32⟩
  | .hbm, ⟨39, _⟩ => ⟨S50000x1280, .f32⟩
  | .hbm, ⟨40, _⟩ => ⟨S_, .f32⟩
  | .hbm, ⟨41, _⟩ => ⟨S128000, .f32⟩
  | .hbm, ⟨42, _⟩ => ⟨S_, .f32⟩
  | .hbm, ⟨43, _⟩ => ⟨S50000, .f32⟩
  | .hbm, ⟨44, _⟩ => ⟨S128000x1, .i32⟩
  | .hbm, ⟨45, _⟩ => ⟨S50000, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S50000x1, .f32⟩
  | .hbm, ⟨50, _⟩ => ⟨S50000x1280, .f32⟩
  | .hbm, ⟨51, _⟩ => ⟨S50000x1280, .f32⟩
  | .hbm, ⟨52, _⟩ => ⟨S50000x1792, .f32⟩
  | .hbm, ⟨53, _⟩ => ⟨S50000x640, .f32⟩
  | .hbm, ⟨54, _⟩ => ⟨S1x640, .f32⟩
  | .hbm, ⟨55, _⟩ => ⟨S50000x640, .f32⟩
  | .hbm, ⟨56, _⟩ => ⟨S50000x640, .f32⟩
  | .hbm, ⟨57, _⟩ => ⟨S_, .f32⟩
  | .hbm, ⟨58, _⟩ => ⟨S50000x640, .f32⟩
  | .hbm, ⟨59, _⟩ => ⟨S50000x640, .f32⟩
  | .hbm, ⟨60, _⟩ => ⟨S50000x512, .f32⟩
  | .hbm, ⟨61, _⟩ => ⟨S1x512, .f32⟩
  | .hbm, ⟨62, _⟩ => ⟨S50000x512, .f32⟩
  | .hbm, ⟨63, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_cst : Ref sig .tc := ⟨.hbm, 57, rfl⟩
abbrev main_call1_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  slices_S2x128000_S1x128000_0_0 : S2x128000.Slices ![0, 0] S1x128000
  shapeCasts_S1x128000_S128000 : S1x128000.ShapeCasts S128000
  slices_S2x128000_S1x128000_1_0 : S2x128000.Slices ![1, 0] S1x128000
  bcast_S_S128000 : S_.BroadcastsInDim S128000 (![] : Fin 0 → Fin S128000.rank)
  bcast_S128000_S128000x1_0 : S128000.BroadcastsInDim S128000x1 (![0] : Fin 1 → Fin S128000x1.rank)
  concatenates_S128000x512_S128000x128_S128000x640_d1 : Shape.Concatenates [S128000x512, S128000x128] S128000x640 1
  bcast_S1280_S1x1280_1 : S1280.BroadcastsInDim S1x1280 (![1] : Fin 1 → Fin S1x1280.rank)
  bcast_S1x1280_S128000x1280_0_1 : S1x1280.BroadcastsInDim S128000x1280 (![0, 1] : Fin 2 → Fin S128000x1280.rank)
  bcast_S_S128000x1280 : S_.BroadcastsInDim S128000x1280 (![] : Fin 0 → Fin S128000x1280.rank)
  bcast_S_S50000x1280 : S_.BroadcastsInDim S50000x1280 (![] : Fin 0 → Fin S50000x1280.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x1280_0_1 : S50000x1.BroadcastsInDim S50000x1280 (![0, 1] : Fin 2 → Fin S50000x1280.rank)
  concatenates_S50000x512_S50000x1280_S50000x1792_d1 : Shape.Concatenates [S50000x512, S50000x1280] S50000x1792 1
  bcast_S640_S1x640_1 : S640.BroadcastsInDim S1x640 (![1] : Fin 1 → Fin S1x640.rank)
  bcast_S1x640_S50000x640_0_1 : S1x640.BroadcastsInDim S50000x640 (![0, 1] : Fin 2 → Fin S50000x640.rank)
  bcast_S_S50000x640 : S_.BroadcastsInDim S50000x640 (![] : Fin 0 → Fin S50000x640.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  gather_S50000x512_S128000x1_S128000x512_1_0_n_n_0_1_1512_wf : GatherDims.WF S50000x512 S128000x1 S128000x512 [1] [0] [] [0] [] 1 ![1, 512]
  dot_S128000x640_S640x1280_S128000x1280_1_0_0_1_n_n_wf : DotDims.WF S128000x640 S640x1280 S128000x1280 [1] [0] [0] [1] [] []
  dot_S128000x1280_S1280x1280_S128000x1280_1_0_0_1_n_n_wf : DotDims.WF S128000x1280 S1280x1280 S128000x1280 [1] [0] [0] [1] [] []
  scatter_S50000x1280_S128000x1_S128000x1280_1_0_0_1_wf : ScatterDims.WF S50000x1280 S128000x1 S128000x1280 [1] [0] [0] 1
  scatter_S50000_S128000x1_S128000_n_0_0_1_wf : ScatterDims.WF S50000 S128000x1 S128000 [] [0] [0] 1
  dot_S50000x1792_S1792x640_S50000x640_1_0_0_1_n_n_wf : DotDims.WF S50000x1792 S1792x640 S50000x640 [1] [0] [0] [1] [] []
  dot_S50000x640_S640x512_S50000x512_1_0_0_1_n_n_wf : DotDims.WF S50000x640 S640x512 S50000x512 [1] [0] [0] [1] [] []

variable [Facts₀]

def gather_S50000x512_S128000x1_S128000x512_1_0_n_n_0_1_1512 : GatherDims S50000x512 S128000x1 S128000x512 where
  offsetDims := [1]
  collapsedSliceDims := [0]
  operandBatchingDims := []
  startIndicesBatchingDims := []
  startIndexMap := [0]
  indexVectorDim := 1
  sliceSizes := ![1, 512]
  wf := gather_S50000x512_S128000x1_S128000x512_1_0_n_n_0_1_1512_wf
def dot_S128000x640_S640x1280_S128000x1280_1_0_0_1_n_n : DotDims S128000x640 S640x1280 S128000x1280 where
  lhsContracting := [1]
  rhsContracting := [0]
  lhsNonContracting := [0]
  rhsNonContracting := [1]
  lhsBatch := []
  rhsBatch := []
  wf := dot_S128000x640_S640x1280_S128000x1280_1_0_0_1_n_n_wf
def dot_S128000x1280_S1280x1280_S128000x1280_1_0_0_1_n_n : DotDims S128000x1280 S1280x1280 S128000x1280 where
  lhsContracting := [1]
  rhsContracting := [0]
  lhsNonContracting := [0]
  rhsNonContracting := [1]
  lhsBatch := []
  rhsBatch := []
  wf := dot_S128000x1280_S1280x1280_S128000x1280_1_0_0_1_n_n_wf
def scatter_S50000x1280_S128000x1_S128000x1280_1_0_0_1 : ScatterDims S50000x1280 S128000x1 S128000x1280 where
  updateWindowDims := [1]
  insertedWindowDims := [0]
  scatterDimsToOperandDims := [0]
  indexVectorDim := 1
  wf := scatter_S50000x1280_S128000x1_S128000x1280_1_0_0_1_wf
def scatter_S50000_S128000x1_S128000_n_0_0_1 : ScatterDims S50000 S128000x1 S128000 where
  updateWindowDims := []
  insertedWindowDims := [0]
  scatterDimsToOperandDims := [0]
  indexVectorDim := 1
  wf := scatter_S50000_S128000x1_S128000_n_0_0_1_wf
def dot_S50000x1792_S1792x640_S50000x640_1_0_0_1_n_n : DotDims S50000x1792 S1792x640 S50000x640 where
  lhsContracting := [1]
  rhsContracting := [0]
  lhsNonContracting := [0]
  rhsNonContracting := [1]
  lhsBatch := []
  rhsBatch := []
  wf := dot_S50000x1792_S1792x640_S50000x640_1_0_0_1_n_n_wf
def dot_S50000x640_S640x512_S50000x512_1_0_0_1_n_n : DotDims S50000x640 S640x512 S50000x512 where
  lhsContracting := [1]
  rhsContracting := [0]
  lhsNonContracting := [0]
  rhsNonContracting := [1]
  lhsBatch := []
  rhsBatch := []
  wf := dot_S50000x640_S640x512_S50000x512_1_0_0_1_n_n_wf

class Facts : Prop extends Facts₀ where

variable [Facts]
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibRowBlock.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«132207_j5935644803811_1_alg».proof.Proof.LibPlainDot

noncomputable section

open scoped BigOperators

/-! # Row blocks of two-axis arrays

An array of `M = T · R` rows cut into `T` blocks of `R` rows (`Layout.block … 0 T t`: rows `t·R … t·R + R − 1`).
Every operation that works row by row commutes with taking a row block: the block of the result is the
operation applied to the blocks. Stated here for the operations of a dense layer: a product with a matrix
shared by all rows, a concatenation along the columns, a column slice, a bias row added to every row, a
constant, and the pointwise operations. With these, a computation on one block of rows is read as the
block of the same computation on the whole array. -/

namespace Cert.RowBlock

open Idealize.ShloMosaic Idealize.ShloMosaic.ValueIdx Idealize.ShloMosaic.Layout

variable {R M T : ℕ} {α : Type}

/-- Where entry `(r, q)` of block `t` lies in the whole array: row `t·R + r`, column `q`. -/
theorem idx_rows {N : ℕ} (hN : Tiles ⟨2, ![R, N]⟩ ⟨2, ![M, N]⟩ 0 T) (t : Fin T) (y : (⟨2, ![R, N]⟩ : Shape).Idx) :
    (hN.idx t y 0).val = t.val * R + (y 0).val ∧ (hN.idx t y 1).val = (y 1).val := ⟨rfl, rfl⟩

/-- The unit word is the real number one. -/
theorem ofBits_one : Ideal.ofBits .f32 0x3F800000#32 = 1 := by
  simp [Ideal.ofBits, Ideal.ieee, -EReal.coe_mul]; norm_num

/-! ## A product with a shared matrix -/

/-- Rows `t·R …` of `X · W` are (rows `t·R …` of `X`) `· W`: entry `(r, c)` of either is
    `∑ k, X (t·R + r, k) · W (k, c)`. The block's product is a matrix-unit product into the zero accumulator,
    the whole array's a host product; on the extended reals both are that sum. -/
theorem dot_rows {K N : ℕ} {φ₁ φ₂ : FTy}
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (block ⟨2, ![R, K]⟩ ⟨2, ![M, K]⟩ 0 T t X hK) W (constant ⟨2, ![R, N]⟩ .f32 0x00000000#32)
      = block ⟨2, ![R, N]⟩ ⟨2, ![M, N]⟩ 0 T t (Host.dotGeneral d₂ p₂ X W) hN := by
  funext y
  refine (Cert.PlainDot.matmul_zero_apply d₁ hd₁ p₁ _ W y).trans ?_
  refine Eq.trans ?_ (Cert.PlainDot.dotGeneral_apply d₂ hd₂ p₂ .single X W (hN.idx t y)).symm
  refine Finset.sum_congr rfl fun k _ => ?_
  have e1 : hK.idx t (ix2 (y 0) k) = ix2 (hN.idx t y 0) k := by
    funext a
    match a with
    | ⟨0, _⟩ => exact Fin.ext rfl
    | ⟨1, _⟩ => exact Fin.ext rfl
  have e2 : (ix2 k (y 1) : (⟨2, ![K, N]⟩ : Shape).Idx) = ix2 k (hN.idx t y 1) := by
    funext a
    match a with
    | ⟨0, _⟩ => exact Fin.ext rfl
    | ⟨1, _⟩ => exact Fin.ext rfl
  rw [block_apply, e1, e2]
  rfl

/-- The same with both operands first rounded to a narrower format, which on the extended reals changes nothing. -/
theorem dot_rows_trunc {K N : ℕ} {φ₁ φ₂ ψ₁ ψ₂ : FTy} (h₁ : ψ₁.bits < φ₁.bits) (h₂ : ψ₂.bits < φ₂.bits)
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (truncf ψ₁ (block ⟨2, ![R, K]⟩ ⟨2, ![M, K]⟩ 0 T t X hK) h₁) (truncf ψ₂ W h₂) (constant ⟨2, ![R, N]⟩ .f32 0x00000000#32)
      = block ⟨2, ![R, N]⟩ ⟨2, ![M, N]⟩ 0 T t (Host.dotGeneral d₂ p₂ X W) hN :=
  dot_rows (φ₁ := φ₁) (φ₂ := φ₂) d₁ hd₁ d₂ hd₂ hK hN p₁ p₂ t X W

/-! ## Pointwise operations -/

section Pointwise
variable {N : ℕ} {φ : FTy} (hN : Tiles ⟨2, ![R, N]⟩ ⟨2, ![M, N]⟩ 0 T) (t : Fin T)
  (X Y : FVec Ideal ⟨2, ![M, N]⟩ φ)

theorem addf_rows : addf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (addf X Y) hN := rfl
theorem subf_rows : subf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (subf X Y) hN := rfl
theorem mulf_rows : mulf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (mulf X Y) hN := rfl
theorem maximumf_rows : maximumf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (maximumf X Y) hN := rfl
/-- The kernel's hyperbolic tangent and the host's are one function on the extended reals. -/
theorem tanh_rows : tanh (block ⟨2, ![R, N]⟩ ⟨2, ![M, N]⟩ 0 T t X hN)
    = block ⟨2, ![R, N]⟩ ⟨2, ![M, N]⟩ 0 T t (Host.tanh X) hN := rfl
/-- The logistic function is `1 / (1 + e^(−x))`, which the host spells out with the unit word for `1`. -/
theorem logistic_rows (hb : (⟨0, ![]⟩ : Shape).BroadcastsInDim ⟨2, ![M, N]⟩ (![] : Fin 0 → Fin 2)) :
    logistic (block ⟨2, ![R, N]⟩ ⟨2, ![M, N]⟩ 0 T t (X : FVec Ideal ⟨2, ![M, N]⟩ .f32) hN)
    = block ⟨2, ![R, N]⟩ ⟨2, ![M, N]⟩ 0 T t
        (Host.divf (broadcastInDim ⟨2, ![M, N]⟩ ![] hb (constant (F := Ideal) ⟨0, ![]⟩ .f32 0x3F800000#32))
          (addf (broadcastInDim ⟨2, ![M, N]⟩ ![] hb (constant (F := Ideal) ⟨0, ![]⟩ .f32 0x3F800000#32)) (Host.exp (Host.negf X)))) hN := by
  funext y
  show FloatOps.logistic (X (hN.idx t y))
    = FloatOps.hostDivf (Ideal.ofBits .f32 0x3F800000#32)
        (FloatOps.addf (Ideal.ofBits .f32 0x3F800000#32) (FloatOps.hostUnary .exp (FloatOps.hostNegf (X (hN.idx t y)))))
  rw [ofBits_one]
  rfl
end Pointwise

/-! ## Constants, bias rows, column slices, concatenation along the columns -/

/-- A constant array's row block is the constant block. -/
theorem splat_rows {N : ℕ} (hN : Tiles ⟨2, ![R, N]⟩ ⟨2, ![M, N]⟩ 0 T) (t : Fin T)
    (hb : (⟨0, ![]⟩ : Shape).BroadcastsInDim ⟨2, ![M, N]⟩ (![] : Fin 0 → Fin 2)) (w : BitVec 32) :
    broadcast ⟨2, ![R, N]⟩ (Scalar.ofBits (F := Ideal) .f32 w)
      = block ⟨2, ![R, N]⟩ ⟨2, ![M, N]⟩ 0 T t (broadcastInDim ⟨2, ![M, N]⟩ ![] hb (constant (F := Ideal) ⟨0, ![]⟩ .f32 w)) hN := by
  funext y
  rfl

/-- A bias row laid under every row: the block sees the same row. -/
theorem bias_rows {N : ℕ} (hN : Tiles ⟨2, ![R, N]⟩ ⟨2, ![M, N]⟩ 0 T) (t : Fin T)
    (hc : (⟨1, ![N]⟩ : Shape).ShapeCasts ⟨2, ![1, N]⟩) (hbt : (⟨2, ![1, N]⟩ : Shape).Broadcasts ⟨2, ![R, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) :
    broadcastTo ⟨2, ![R, N]⟩ (shapeCast ⟨2, ![1, N]⟩ b hc) hbt
      = block ⟨2, ![R, N]⟩ ⟨2, ![M, N]⟩ 0 T t (broadcastInDim ⟨2, ![M, N]⟩ ![0, 1] h2 (broadcastInDim ⟨2, ![1, N]⟩ ![1] h1 b)) hN := by
  funext y
  obtain ⟨p, q, rfl⟩ : ∃ (p : Fin R) (q : Fin N), y = ix2 p q := ⟨y 0, y 1, eq_ix2 y⟩
  rw [broadcastTo_1b_ab_apply, shapeCast_a_1a_apply, block_apply]
  refine Eq.symm ?_
  refine (broadcastInDim_apply ![0, 1] h2 _ (hN.idx t (ix2 p q)) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Columns `o … o + N' − 1`: of the block, or the block of those columns. -/
theorem slice_rows {N N' : ℕ} (o : ℕ) (hN : Tiles ⟨2, ![R, N]⟩ ⟨2, ![M, N]⟩ 0 T) (hN' : Tiles ⟨2, ![R, N']⟩ ⟨2, ![M, N']⟩ 0 T) (t : Fin T)
    (hs : (⟨2, ![R, N]⟩ : Shape).Slices ![0, o] ⟨2, ![R, N']⟩) (hs' : (⟨2, ![M, N]⟩ : Shape).Slices ![0, o] ⟨2, ![M, N']⟩)
    (X : (⟨2, ![M, N]⟩ : Shape).Idx → α) :
    extractStridedSlice ⟨2, ![R, N']⟩ ![0, o] (block ⟨2, ![R, N]⟩ ⟨2, ![M, N]⟩ 0 T t X hN) hs
      = block ⟨2, ![R, N']⟩ ⟨2, ![M, N']⟩ 0 T t (extractStridedSlice ⟨2, ![M, N']⟩ ![0, o] X hs') hN' := by
  funext y
  show X _ = X _
  congr 1
  funext a
  match a with
  | ⟨0, _⟩ =>
    apply Fin.ext
    show t.val * R + (0 + (y 0).val) = 0 + (t.val * R + (y 0).val)
    omega
  | ⟨1, _⟩ => exact Fin.ext rfl

/-- Two arrays side by side: the block of the pair is the pair of the blocks. -/
theorem concat2_rows {N₁ N₂ N : ℕ}
    (h₁ : Tiles ⟨2, ![R, N₁]⟩ ⟨2, ![M, N₁]⟩ 0 T) (h₂ : Tiles ⟨2, ![R, N₂]⟩ ⟨2, ![M, N₂]⟩ 0 T) (hN : Tiles ⟨2, ![R, N]⟩ ⟨2, ![M, N]⟩ 0 T)
    (t : Fin T)
    (hc : Shape.Concatenates [(⟨2, ![R, N₁]⟩ : Shape), ⟨2, ![R, N₂]⟩] ⟨2, ![R, N]⟩ 1)
    (hc' : Shape.Concatenates [(⟨2, ![M, N₁]⟩ : Shape), ⟨2, ![M, N₂]⟩] ⟨2, ![M, N]⟩ 1)
    (A : (⟨2, ![M, N₁]⟩ : Shape).Idx → α) (B : (⟨2, ![M, N₂]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc
      = block ⟨2, ![R, N]⟩ ⟨2, ![M, N]⟩ 0 T t (concatenate ⟨2, ![M, N]⟩ 1 [⟨⟨2, ![M, N₁]⟩, A⟩, ⟨⟨2, ![M, N₂]⟩, B⟩] hc') hN := by
  funext y
  obtain ⟨p, q, rfl⟩ : ∃ (p : Fin R) (q : Fin N), y = ix2 p q := ⟨y 0, y 1, eq_ix2 y⟩
  have hsum : N₁ + (N₂ + (0)) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 0 (by show 0 < 2; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 0 (by show 0 < 2; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 1 (by show 1 < 2; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 1 (by show 1 < 2; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb

/-- Four arrays side by side. -/
theorem concat4_rows {N₁ N₂ N₃ N₄ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩] ⟨2, ![R, N]⟩ 1)
    (hc' : Shape.Concatenates [(⟨2, ![M, N₁]⟩ : Shape), ⟨2, ![M, N₂]⟩, ⟨2, ![M, N₃]⟩, ⟨2, ![M, N₄]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩,
        ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩] hc') hN := by
  funext y
  obtain ⟨p, q, rfl⟩ : ∃ (p : Fin R) (q : Fin N), y = ix2 p q := ⟨y 0, y 1, eq_ix2 y⟩
  have hsum : N₁ + (N₂ + (N₃ + (N₄ + (0)))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 0 (by show 0 < 4; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 0 (by show 0 < 4; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 1 (by show 1 < 4; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 1 (by show 1 < 4; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 2 (by show 2 < 4; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 2 (by show 2 < 4; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 3 (by show 3 < 4; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 3 (by show 3 < 4; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb

end Cert.RowBlock

end
-- ==== Proof.Dense.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«132207_j5935644803811_1_alg».proof.Proof.LibRowBlock

noncomputable section

/-! # Two dense layers with a rectifier between them, one block of rows at a time

`max(X · W₁ + b₁, 0) · W₂ + b₂` works row by row: row `i` of the result depends on row `i` of `X` only. So the
computation done on rows `t·R … t·R + R − 1` alone, with matrix-unit products into zero accumulators and the
hidden layer rounded to a narrower format (nothing, on the extended reals), is the block of those rows of the same
computation done on all `M = T · R` rows at once with host products. -/

namespace Cert.Dense

open Idealize.ShloMosaic Idealize.ShloMosaic.ValueIdx Idealize.ShloMosaic.Layout

variable {R M T K H N : ℕ}

/-- The two layers on a whole array of `M` rows, in the host's operations; each bias, a vector, is first made a
    one-row matrix and then laid under every row. -/
def twoLayer {φ₁ φ₂ φ₃ : FTy}
    (d₁ : DotDims ⟨2, ![M, K]⟩ ⟨2, ![K, H]⟩ ⟨2, ![M, H]⟩) (d₂ : DotDims ⟨2, ![M, H]⟩ ⟨2, ![H, N]⟩ ⟨2, ![M, N]⟩)
    (p₁ p₂ : Option ContractPrecision)
    (hz : (⟨0, ![]⟩ : Shape).BroadcastsInDim ⟨2, ![M, H]⟩ (![] : Fin 0 → Fin 2))
    (g₁ : (⟨1, ![H]⟩ : Shape).BroadcastsInDim ⟨2, ![1, H]⟩ (![1] : Fin 1 → Fin 2))
    (g₂ : (⟨2, ![1, H]⟩ : Shape).BroadcastsInDim ⟨2, ![M, H]⟩ (![0, 1] : Fin 2 → Fin 2))
    (k₁ : (⟨1, ![N]⟩ : Shape).BroadcastsInDim ⟨2, ![1, N]⟩ (![1] : Fin 1 → Fin 2))
    (k₂ : (⟨2, ![1, N]⟩ : Shape).BroadcastsInDim ⟨2, ![M, N]⟩ (![0, 1] : Fin 2 → Fin 2))
    (X : FVec Ideal ⟨2, ![M, K]⟩ φ₁) (W₁ : FVec Ideal ⟨2, ![K, H]⟩ φ₂) (b₁ : FVec Ideal ⟨1, ![H]⟩ .f32)
    (W₂ : FVec Ideal ⟨2, ![H, N]⟩ φ₃) (b₂ : FVec Ideal ⟨1, ![N]⟩ .f32) : FVec Ideal ⟨2, ![M, N]⟩ .f32 :=
  addf
    (Host.dotGeneral d₂ p₂
      (maximumf
        (addf (Host.dotGeneral d₁ p₁ X W₁)
          (broadcastInDim ⟨2, ![M, H]⟩ ![0, 1] g₂ (broadcastInDim ⟨2, ![1, H]⟩ ![1] g₁ b₁)))
        (broadcastInDim ⟨2, ![M, H]⟩ ![] hz (constant (F := Ideal) ⟨0, ![]⟩ .f32 0x00000000#32)))
      W₂)
    (broadcastInDim ⟨2, ![M, N]⟩ ![0, 1] k₂ (broadcastInDim ⟨2, ![1, N]⟩ ![1] k₁ b₂))

/-- A product whose left operand, a block of rows, was first rounded to a narrower format: rounding is the identity
    on the extended reals, so this is the plain row-block product. -/
theorem dot_rows_roundL {φ₁ φ₂ ψ : FTy} (h : ψ.bits < φ₁.bits)
    (e : DotDims ⟨2, ![R, K]⟩ ⟨2, ![K, N]⟩ ⟨2, ![R, N]⟩) (he : e = DotDims.plain R K N)
    (d : DotDims ⟨2, ![M, K]⟩ ⟨2, ![K, N]⟩ ⟨2, ![M, N]⟩) (hd : d = DotDims.plain M K N)
    (hK : Tiles ⟨2, ![R, K]⟩ ⟨2, ![M, K]⟩ 0 T) (hN : Tiles ⟨2, ![R, N]⟩ ⟨2, ![M, N]⟩ 0 T)
    (q p : Option ContractPrecision) (t : Fin T)
    (X : FVec Ideal ⟨2, ![M, K]⟩ φ₁) (W : FVec Ideal ⟨2, ![K, N]⟩ φ₂) :
    matmul e q (truncf ψ (block ⟨2, ![R, K]⟩ ⟨2, ![M, K]⟩ 0 T t X hK) h) W (constant ⟨2, ![R, N]⟩ .f32 0x00000000#32)
      = block ⟨2, ![R, N]⟩ ⟨2, ![M, N]⟩ 0 T t (Host.dotGeneral d p X W) hN :=
  Cert.RowBlock.dot_rows (φ₁ := φ₁) (φ₂ := φ₂) e he d hd hK hN q p t X W

/-- THE BLOCK OF ROWS: the two layers computed on block `t` of `X` are block `t` of the two layers computed on `X`. -/
theorem twoLayer_rows {φ₁ φ₂ φ₃ : FTy}
    (e₁ : DotDims ⟨2, ![R, K]⟩ ⟨2, ![K, H]⟩ ⟨2, ![R, H]⟩) (he₁ : e₁ = DotDims.plain R K H)
    (e₂ : DotDims ⟨2, ![R, H]⟩ ⟨2, ![H, N]⟩ ⟨2, ![R, N]⟩) (he₂ : e₂ = DotDims.plain R H N)
    (d₁ : DotDims ⟨2, ![M, K]⟩ ⟨2, ![K, H]⟩ ⟨2, ![M, H]⟩) (hd₁ : d₁ = DotDims.plain M K H)
    (d₂ : DotDims ⟨2, ![M, H]⟩ ⟨2, ![H, N]⟩ ⟨2, ![M, N]⟩) (hd₂ : d₂ = DotDims.plain M H N)
    (q₁ q₂ p₁ p₂ : Option ContractPrecision)
    (hK : Tiles ⟨2, ![R, K]⟩ ⟨2, ![M, K]⟩ 0 T) (hH : Tiles ⟨2, ![R, H]⟩ ⟨2, ![M, H]⟩ 0 T)
    (hN : Tiles ⟨2, ![R, N]⟩ ⟨2, ![M, N]⟩ 0 T) (t : Fin T)
    (hz : (⟨0, ![]⟩ : Shape).BroadcastsInDim ⟨2, ![M, H]⟩ (![] : Fin 0 → Fin 2))
    (g₁ : (⟨1, ![H]⟩ : Shape).BroadcastsInDim ⟨2, ![1, H]⟩ (![1] : Fin 1 → Fin 2))
    (g₂ : (⟨2, ![1, H]⟩ : Shape).BroadcastsInDim ⟨2, ![M, H]⟩ (![0, 1] : Fin 2 → Fin 2))
    (k₁ : (⟨1, ![N]⟩ : Shape).BroadcastsInDim ⟨2, ![1, N]⟩ (![1] : Fin 1 → Fin 2))
    (k₂ : (⟨2, ![1, N]⟩ : Shape).BroadcastsInDim ⟨2, ![M, N]⟩ (![0, 1] : Fin 2 → Fin 2))
    (c₁ : (⟨1, ![H]⟩ : Shape).ShapeCasts ⟨2, ![1, H]⟩) (bt₁ : (⟨2, ![1, H]⟩ : Shape).Broadcasts ⟨2, ![R, H]⟩)
    (c₂ : (⟨1, ![N]⟩ : Shape).ShapeCasts ⟨2, ![1, N]⟩) (bt₂ : (⟨2, ![1, N]⟩ : Shape).Broadcasts ⟨2, ![R, N]⟩)
    (hlt : FTy.bits .bf16 < FTy.bits .f32)
    (X : FVec Ideal ⟨2, ![M, K]⟩ φ₁) (W₁ : FVec Ideal ⟨2, ![K, H]⟩ φ₂) (b₁ : FVec Ideal ⟨1, ![H]⟩ .f32)
    (W₂ : FVec Ideal ⟨2, ![H, N]⟩ φ₃) (b₂ : FVec Ideal ⟨1, ![N]⟩ .f32) :
    addf
      (matmul e₂ q₂
        (truncf .bf16
          (maximumf
            (addf (matmul e₁ q₁ (block ⟨2, ![R, K]⟩ ⟨2, ![M, K]⟩ 0 T t X hK) W₁ (constant ⟨2, ![R, H]⟩ .f32 0x00000000#32))
              (broadcastTo ⟨2, ![R, H]⟩ (shapeCast ⟨2, ![1, H]⟩ b₁ c₁) bt₁))
            (broadcast ⟨2, ![R, H]⟩ (Scalar.ofBits (F := Ideal) .f32 0x00000000#32))) hlt)
        W₂ (constant ⟨2, ![R, N]⟩ .f32 0x00000000#32))
      (broadcastTo ⟨2, ![R, N]⟩ (shapeCast ⟨2, ![1, N]⟩ b₂ c₂) bt₂)
    = block ⟨2, ![R, N]⟩ ⟨2, ![M, N]⟩ 0 T t (twoLayer d₁ d₂ p₁ p₂ hz g₁ g₂ k₁ k₂ X W₁ b₁ W₂ b₂) hN := by
  rw [Cert.RowBlock.dot_rows (φ₁ := φ₁) (φ₂ := φ₂) e₁ he₁ d₁ hd₁ hK hH q₁ p₁ t X W₁,
    Cert.RowBlock.bias_rows hH t c₁ bt₁ g₁ g₂ b₁, Cert.RowBlock.addf_rows,
    Cert.RowBlock.splat_rows hH t hz, Cert.RowBlock.maximumf_rows,
    dot_rows_roundL (φ₁ := .f32) (φ₂ := φ₃) hlt e₂ he₂ d₂ hd₂ hH hN q₂ p₂ t _ W₂,
    Cert.RowBlock.bias_rows hN t c₂ bt₂ k₁ k₂ b₂, Cert.RowBlock.addf_rows]
  rfl

end Cert.Dense

end
-- ==== Proof.Region0.lean ====
import proofs.«132207_j5935644803811_1_alg».proof.Proof.Gen.KernelIdeal.Frame
import proofs.«132207_j5935644803811_1_alg».proof.Proof.Dense

set_option maxRecDepth 16384

noncomputable section

/-! # What the first region leaves in its result array

The region runs the two-layer kernel on 250 blocks of 512 rows of its first operand `[128000, 640]`; the two weight
matrices and the two bias rows are whole blocks, the same at every point. Point `t` reads rows `512·t … 512·t + 399`
and writes back the same rows of the result `[128000, 1280]`. A dense layer works row by row, so each written block
is the block of rows of the two layers computed on the whole operand, and the 250 blocks tile the result. The
statement is for any contents `V` of the buffers when the region is entered. -/

namespace Cert.KernelIdeal.Region0

open Idealize.ShloMosaic Idealize.ShloMosaic.TcCoe Idealize.ShloMosaic.ValueIdx Idealize.ShloMosaic.Layout
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The region's five operand arrays as it finds them: the rows, the first weights, the first bias row, the second
    weights, the second bias row. -/
abbrev xs (c : Dev nD) : FVec Ideal S128000x640 .bf16 := V c main_v12
abbrev w1 (c : Dev nD) : FVec Ideal S640x1280 .bf16 := V c main_v13
abbrev r1 (c : Dev nD) : FVec Ideal S1x1280 .f32 := V c main_v15
abbrev w2 (c : Dev nD) : FVec Ideal S1280x1280 .bf16 := V c main_v14
abbrev r2 (c : Dev nD) : FVec Ideal S1x1280 .f32 := V c main_v16

theorem hz : (![0, 0] : Fin 2 → Nat) = fun _ => 0 := funext fun a => by fin_cases a <;> rfl

/-- The index maps over the grid: the row operand and the result move one block of rows per point, every other
    operand stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row operand's block at point `t` is block `t` of its rows. -/
theorem blk_x (c : Dev nD) (t : Fin cfg0.N) :
    iblk0 V c 0 t = block S512x640 S128000x640 0 250 t (xs V c) (by decide) := by
  funext y
  obtain ⟨e0, e1, -⟩ := idx_facts t
  show xs V c (((cfg0.win 0).blk t).view.emb y) = xs V c ((by decide : Tiles S512x640 S128000x640 0 250).idx t y)
  refine congrArg (xs V c) ?_
  funext a; apply Fin.ext
  match a with
  | ⟨0, _⟩ => show win0_0.index t (0 : Fin 2) * 512 + 1 * (y 0).val = t.val * 512 + (y 0).val; omega
  | ⟨1, _⟩ => show win0_0.index t (1 : Fin 2) * 640 + 1 * (y 1).val = (y 1).val; omega

/-- Every other operand's block is its whole array. -/
theorem blk_w1 (c : Dev nD) (t : Fin cfg0.N) : iblk0 V c 1 t = w1 V c := by
  funext y
  obtain ⟨-, -, e0, e1, -⟩ := idx_facts t
  show w1 V c (((cfg0.win 1).blk t).view.emb y) = w1 V c y
  refine congrArg (w1 V c) ?_
  funext a; apply Fin.ext
  match a with
  | ⟨0, _⟩ => show win0_1.index t (0 : Fin 2) * 640 + 1 * (y 0).val = (y 0).val; omega
  | ⟨1, _⟩ => show win0_1.index t (1 : Fin 2) * 1280 + 1 * (y 1).val = (y 1).val; omega

theorem blk_r1 (c : Dev nD) (t : Fin cfg0.N) : iblk0 V c 2 t = r1 V c := by
  funext y
  obtain ⟨-, -, -, -, e0, e1, -⟩ := idx_facts t
  show r1 V c (((cfg0.win 2).blk t).view.emb y) = r1 V c y
  refine congrArg (r1 V c) ?_
  funext a; apply Fin.ext
  match a with
  | ⟨0, _⟩ => show win0_2.index t (0 : Fin 2) * 1 + 1 * (y 0).val = (y 0).val; omega
  | ⟨1, _⟩ => show win0_2.index t (1 : Fin 2) * 1280 + 1 * (y 1).val = (y 1).val; omega

theorem blk_w2 (c : Dev nD) (t : Fin cfg0.N) : iblk0 V c 3 t = w2 V c := by
  funext y
  obtain ⟨-, -, -, -, -, -, e0, e1, -⟩ := idx_facts t
  show w2 V c (((cfg0.win 3).blk t).view.emb y) = w2 V c y
  refine congrArg (w2 V c) ?_
  funext a; apply Fin.ext
  match a with
  | ⟨0, _⟩ => show win0_3.index t (0 : Fin 2) * 1280 + 1 * (y 0).val = (y 0).val; omega
  | ⟨1, _⟩ => show win0_3.index t (1 : Fin 2) * 1280 + 1 * (y 1).val = (y 1).val; omega

theorem blk_r2 (c : Dev nD) (t : Fin cfg0.N) : iblk0 V c 4 t = r2 V c := by
  funext y
  obtain ⟨-, -, -, -, -, -, -, -, e0, e1, -⟩ := idx_facts t
  show r2 V c (((cfg0.win 4).blk t).view.emb y) = r2 V c y
  refine congrArg (r2 V c) ?_
  funext a; apply Fin.ext
  match a with
  | ⟨0, _⟩ => show win0_4.index t (0 : Fin 2) * 1 + 1 * (y 0).val = (y 0).val; omega
  | ⟨1, _⟩ => show win0_4.index t (1 : Fin 2) * 1280 + 1 * (y 1).val = (y 1).val; omega

section Value

/-- The hidden layer's shape on all rows (the kernel itself only ever holds one block of it). -/
abbrev Hid : Shape := ⟨2, ![128000, 1280]⟩

/- The whole-array computation is stated with any two records of the plain dimension numbers, any precisions and any
   witnesses of its broadcasts: whoever compares it with another program's text passes that program's own. -/
variable (d₁ : DotDims S128000x640 S640x1280 Hid) (hd₁ : d₁ = DotDims.plain 128000 640 1280)
  (d₂ : DotDims Hid S1280x1280 S128000x1280) (hd₂ : d₂ = DotDims.plain 128000 1280 1280)
  (p₁ p₂ : Option ContractPrecision)
  (hzb : S_.BroadcastsInDim Hid (![] : Fin 0 → Fin 2))
  (g₁ : S1280.BroadcastsInDim S1x1280 (![1] : Fin 1 → Fin 2))
  (g₂ : S1x1280.BroadcastsInDim Hid (![0, 1] : Fin 2 → Fin 2))
  (k₁ : S1280.BroadcastsInDim S1x1280 (![1] : Fin 1 → Fin 2))
  (k₂ : S1x1280.BroadcastsInDim S128000x1280 (![0, 1] : Fin 2 → Fin 2))

include hd₁ hd₂ in
/-- The body's arithmetic on block `t` of the rows is block `t` of the two layers on all rows. -/
theorem pay_eq (t : Fin 250) (X : FVec Ideal S128000x640 .bf16) (W₁ : FVec Ideal S640x1280 .bf16) (b₁ : FVec Ideal S1280 .f32)
    (W₂ : FVec Ideal S1280x1280 .bf16) (b₂ : FVec Ideal S1280 .f32) :
    k0_pay1 (F := Ideal) (block S512x640 S128000x640 0 250 t X (by decide)) W₁ (shapeCast S1x1280 b₁ shapeCasts_S1280_S1x1280) W₂
        (shapeCast S1x1280 b₂ shapeCasts_S1280_S1x1280)
      = block S512x1280 S128000x1280 0 250 t (Cert.Dense.twoLayer d₁ d₂ p₁ p₂ hzb g₁ g₂ k₁ k₂ X W₁ b₁ W₂ b₂) (by decide) := by
  unfold k0_pay1
  simp only [shapeCast_self]
  exact Cert.Dense.twoLayer_rows dot_S512x640_S640x1280_S512x1280_1_0_0_1_n_n rfl dot_S512x1280_S1280x1280_S512x1280_1_0_0_1_n_n rfl
    d₁ hd₁ d₂ hd₂ none none p₁ p₂ (by decide) (by decide) (by decide) t hzb g₁ g₂ k₁ k₂
    shapeCasts_S1280_S1x1280 broadcasts_S1x1280_S512x1280 shapeCasts_S1280_S1x1280 broadcasts_S1x1280_S512x1280
    bitsLt_bf16_f32 X W₁ b₁ W₂ b₂

include hd₁ hd₂ in
/-- What point `t` writes back is block `t` of rows of the two layers computed on the whole entry array. -/
theorem flushed_eq (c : Dev nD) (t : Fin cfg0.N) (b₁ : FVec Ideal S1280 .f32) (b₂ : FVec Ideal S1280 .f32)
    (h1 : r1 V c = shapeCast S1x1280 b₁ shapeCasts_S1280_S1x1280)
    (h2 : r2 V c = shapeCast S1x1280 b₂ shapeCasts_S1280_S1x1280) :
    (dat0 V c).flushed 5 t = ((cfg0.win 5).blk t).view.read (Elt Ideal)
      (Cert.Dense.twoLayer d₁ d₂ p₁ p₂ hzb g₁ g₂ k₁ k₂ (xs V c) (w1 V c) b₁ (w2 V c) b₂) := by
  show (cfg0.win 5).cut (grid0.coords t) ((dat0 V c).after 5 t) = _
  rw [after0_5]
  unfold out0_5
  rw [View.canon_unit_zero hz]
  simp only [View.ld_unit_zero (S := S512x640) hz, View.ld_unit_zero (S := S640x1280) hz, View.ld_unit_zero (S := S1x1280) hz,
    View.ld_unit_zero (S := S1280x1280) hz, View.ld_unit_zero (S := S1x1280) hz]
  rw [blk_x, blk_w1, blk_r1, blk_w2, blk_r2, h1, h2, pay_eq d₁ hd₁ d₂ hd₂ p₁ p₂ hzb g₁ g₂ k₁ k₂ t (xs V c) (w1 V c) b₁ (w2 V c) b₂]
  obtain ⟨-, -, -, -, -, -, -, -, -, -, e0, e1⟩ := idx_facts t
  funext j
  show Cert.Dense.twoLayer d₁ d₂ p₁ p₂ hzb g₁ g₂ k₁ k₂ (xs V c) (w1 V c) b₁ (w2 V c) b₂
      ((by decide : Tiles S512x1280 S128000x1280 0 250).idx t j)
    = Cert.Dense.twoLayer d₁ d₂ p₁ p₂ hzb g₁ g₂ k₁ k₂ (xs V c) (w1 V c) b₁ (w2 V c) b₂ (((cfg0.win 5).blk t).view.emb j)
  refine congrArg _ ?_
  funext a; apply Fin.ext
  match a with
  | ⟨0, _⟩ => show t.val * 512 + (j 0).val = win0_5.index t (0 : Fin 2) * 512 + 1 * (j 0).val; omega
  | ⟨1, _⟩ => show (j 1).val = win0_5.index t (1 : Fin 2) * 1280 + 1 * (j 1).val; omega

/-- An index of the result array is in point `t`'s block iff each coordinate is in the block's range on its axis. -/
theorem mem_blk (t : Fin cfg0.N) (i : S128000x1280.Idx) :
    i ∈ ((cfg0.win 5).blk t).view.set ↔ ∀ a : Fin 2, win0_5.index t a * S512x1280.size a ≤ (i a).val ∧ (i a).val < win0_5.index t a * S512x1280.size a + S512x1280.size a := by
  show i ∈ ((View.whole main_v17).slice (win0_5.rect t)).set ↔ _
  rw [View.set_slice_whole, Rect.mem_set_unit]
  exact Iff.rfl

/-- The blocks of rows tile the result array: row `r` is in the block of point `r / 512`. -/
theorem cover (i : S128000x1280.Idx) :
    ∃ t : Fin cfg0.N, (cfg0.win 5).flush t = true ∧ i ∈ ((cfg0.win 5).blk t).view.set := by
  have hi0 : (i 0).val < 128000 := (i 0).isLt
  have hi1 : (i 1).val < 1280 := (i 1).isLt
  refine ⟨⟨(i 0).val / 512, by show (i 0).val / 512 < 250; omega⟩, flush0_5 _, ?_⟩
  obtain ⟨-, -, -, -, -, -, -, -, -, -, e0, e1⟩ := idx_facts ⟨(i 0).val / 512, by show (i 0).val / 512 < 250; omega⟩
  rw [mem_blk]
  intro a
  match a with
  | ⟨0, _⟩ =>
    show win0_5.index _ (0 : Fin 2) * 512 ≤ (i 0).val ∧ (i 0).val < win0_5.index _ (0 : Fin 2) * 512 + 512
    rw [e0]; show (i 0).val / 512 * 512 ≤ (i 0).val ∧ (i 0).val < (i 0).val / 512 * 512 + 512; omega
  | ⟨1, _⟩ =>
    show win0_5.index _ (1 : Fin 2) * 1280 ≤ (i 1).val ∧ (i 1).val < win0_5.index _ (1 : Fin 2) * 1280 + 1280
    rw [e1]; omega

include hd₁ hd₂ in
/-- THE RESULT ARRAY OF THE REGION: the two layers computed on the whole entry array, whatever the entry contents,
    when the two bias rows are the one-row matrices of vectors `b₁`, `b₂`. -/
theorem result (c : Dev nD) (b₁ : FVec Ideal S1280 .f32) (b₂ : FVec Ideal S1280 .f32)
    (h1 : r1 V c = shapeCast S1x1280 b₁ shapeCasts_S1280_S1x1280)
    (h2 : r2 V c = shapeCast S1x1280 b₂ shapeCasts_S1280_S1x1280) :
    (dat0 V c).arrAt 5 cfg0.N = Cert.Dense.twoLayer d₁ d₂ p₁ p₂ hzb g₁ g₂ k₁ k₂ (xs V c) (w1 V c) b₁ (w2 V c) b₂ :=
  (dat0 V c).arrAt_eq_of_cover 5 _ (fun t _ => flushed_eq V d₁ hd₁ d₂ hd₂ p₁ p₂ hzb g₁ g₂ k₁ k₂ c t b₁ b₂ h1 h2) cover

end Value

end Cert.KernelIdeal.Region0

end
-- ==== Proof.Region1.lean ====
import proofs.«132207_j5935644803811_1_alg».proof.Proof.Gen.KernelIdeal.Frame
import proofs.«132207_j5935644803811_1_alg».proof.Proof.Dense

set_option maxRecDepth 16384

noncomputable section

/-! # What the second region leaves in its result array

The region runs the two-layer kernel on 125 blocks of 400 rows of its first operand `[50000, 1792]`; the two weight
matrices and the two bias rows are whole blocks, the same at every point. Point `t` reads rows `400·t … 400·t + 399`
and writes back the same rows of the result `[50000, 512]`. A dense layer works row by row, so each written block
is the block of rows of the two layers computed on the whole operand, and the 125 blocks tile the result. The
statement is for any contents `V` of the buffers when the region is entered. -/

namespace Cert.KernelIdeal.Region1

open Idealize.ShloMosaic Idealize.ShloMosaic.TcCoe Idealize.ShloMosaic.ValueIdx Idealize.ShloMosaic.Layout
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The region's five operand arrays as it finds them: the rows, the first weights, the first bias row, the second
    weights, the second bias row. -/
abbrev xs (c : Dev nD) : FVec Ideal S50000x1792 .bf16 := V c main_v31
abbrev w1 (c : Dev nD) : FVec Ideal S1792x640 .bf16 := V c main_v32
abbrev r1 (c : Dev nD) : FVec Ideal S1x640 .f32 := V c main_v34
abbrev w2 (c : Dev nD) : FVec Ideal S640x512 .bf16 := V c main_v33
abbrev r2 (c : Dev nD) : FVec Ideal S1x512 .f32 := V c main_v35

theorem hz : (![0, 0] : Fin 2 → Nat) = fun _ => 0 := funext fun a => by fin_cases a <;> rfl

/-- The index maps over the grid: the row operand and the result move one block of rows per point, every other
    operand stays at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The row operand's block at point `t` is block `t` of its rows. -/
theorem blk_x (c : Dev nD) (t : Fin cfg1.N) :
    iblk1 V c 0 t = block S400x1792 S50000x1792 0 125 t (xs V c) (by decide) := by
  funext y
  obtain ⟨e0, e1, -⟩ := idx_facts t
  show xs V c (((cfg1.win 0).blk t).view.emb y) = xs V c ((by decide : Tiles S400x1792 S50000x1792 0 125).idx t y)
  refine congrArg (xs V c) ?_
  funext a; apply Fin.ext
  match a with
  | ⟨0, _⟩ => show win1_0.index t (0 : Fin 2) * 400 + 1 * (y 0).val = t.val * 400 + (y 0).val; omega
  | ⟨1, _⟩ => show win1_0.index t (1 : Fin 2) * 1792 + 1 * (y 1).val = (y 1).val; omega

/-- Every other operand's block is its whole array. -/
theorem blk_w1 (c : Dev nD) (t : Fin cfg1.N) : iblk1 V c 1 t = w1 V c := by
  funext y
  obtain ⟨-, -, e0, e1, -⟩ := idx_facts t
  show w1 V c (((cfg1.win 1).blk t).view.emb y) = w1 V c y
  refine congrArg (w1 V c) ?_
  funext a; apply Fin.ext
  match a with
  | ⟨0, _⟩ => show win1_1.index t (0 : Fin 2) * 1792 + 1 * (y 0).val = (y 0).val; omega
  | ⟨1, _⟩ => show win1_1.index t (1 : Fin 2) * 640 + 1 * (y 1).val = (y 1).val; omega

theorem blk_r1 (c : Dev nD) (t : Fin cfg1.N) : iblk1 V c 2 t = r1 V c := by
  funext y
  obtain ⟨-, -, -, -, e0, e1, -⟩ := idx_facts t
  show r1 V c (((cfg1.win 2).blk t).view.emb y) = r1 V c y
  refine congrArg (r1 V c) ?_
  funext a; apply Fin.ext
  match a with
  | ⟨0, _⟩ => show win1_2.index t (0 : Fin 2) * 1 + 1 * (y 0).val = (y 0).val; omega
  | ⟨1, _⟩ => show win1_2.index t (1 : Fin 2) * 640 + 1 * (y 1).val = (y 1).val; omega

theorem blk_w2 (c : Dev nD) (t : Fin cfg1.N) : iblk1 V c 3 t = w2 V c := by
  funext y
  obtain ⟨-, -, -, -, -, -, e0, e1, -⟩ := idx_facts t
  show w2 V c (((cfg1.win 3).blk t).view.emb y) = w2 V c y
  refine congrArg (w2 V c) ?_
  funext a; apply Fin.ext
  match a with
  | ⟨0, _⟩ => show win1_3.index t (0 : Fin 2) * 640 + 1 * (y 0).val = (y 0).val; omega
  | ⟨1, _⟩ => show win1_3.index t (1 : Fin 2) * 512 + 1 * (y 1).val = (y 1).val; omega

theorem blk_r2 (c : Dev nD) (t : Fin cfg1.N) : iblk1 V c 4 t = r2 V c := by
  funext y
  obtain ⟨-, -, -, -, -, -, -, -, e0, e1, -⟩ := idx_facts t
  show r2 V c (((cfg1.win 4).blk t).view.emb y) = r2 V c y
  refine congrArg (r2 V c) ?_
  funext a; apply Fin.ext
  match a with
  | ⟨0, _⟩ => show win1_4.index t (0 : Fin 2) * 1 + 1 * (y 0).val = (y 0).val; omega
  | ⟨1, _⟩ => show win1_4.index t (1 : Fin 2) * 512 + 1 * (y 1).val = (y 1).val; omega

section Value

/-- The hidden layer's shape on all rows (the kernel itself only ever holds one block of it). -/
abbrev Hid : Shape := ⟨2, ![50000, 640]⟩

/- The whole-array computation is stated with any two records of the plain dimension numbers, any precisions and any
   witnesses of its broadcasts: whoever compares it with another program's text passes that program's own. -/
variable (d₁ : DotDims S50000x1792 S1792x640 Hid) (hd₁ : d₁ = DotDims.plain 50000 1792 640)
  (d₂ : DotDims Hid S640x512 S50000x512) (hd₂ : d₂ = DotDims.plain 50000 640 512)
  (p₁ p₂ : Option ContractPrecision)
  (hzb : S_.BroadcastsInDim Hid (![] : Fin 0 → Fin 2))
  (g₁ : S640.BroadcastsInDim S1x640 (![1] : Fin 1 → Fin 2))
  (g₂ : S1x640.BroadcastsInDim Hid (![0, 1] : Fin 2 → Fin 2))
  (k₁ : S512.BroadcastsInDim S1x512 (![1] : Fin 1 → Fin 2))
  (k₂ : S1x512.BroadcastsInDim S50000x512 (![0, 1] : Fin 2 → Fin 2))

include hd₁ hd₂ in
/-- The body's arithmetic on block `t` of the rows is block `t` of the two layers on all rows. -/
theorem pay_eq (t : Fin 125) (X : FVec Ideal S50000x1792 .bf16) (W₁ : FVec Ideal S1792x640 .bf16) (b₁ : FVec Ideal S640 .f32)
    (W₂ : FVec Ideal S640x512 .bf16) (b₂ : FVec Ideal S512 .f32) :
    k1_pay1 (F := Ideal) (block S400x1792 S50000x1792 0 125 t X (by decide)) W₁ (shapeCast S1x640 b₁ shapeCasts_S640_S1x640) W₂
        (shapeCast S1x512 b₂ shapeCasts_S512_S1x512)
      = block S400x512 S50000x512 0 125 t (Cert.Dense.twoLayer d₁ d₂ p₁ p₂ hzb g₁ g₂ k₁ k₂ X W₁ b₁ W₂ b₂) (by decide) := by
  unfold k1_pay1
  simp only [shapeCast_self]
  exact Cert.Dense.twoLayer_rows dot_S400x1792_S1792x640_S400x640_1_0_0_1_n_n rfl dot_S400x640_S640x512_S400x512_1_0_0_1_n_n rfl
    d₁ hd₁ d₂ hd₂ none none p₁ p₂ (by decide) (by decide) (by decide) t hzb g₁ g₂ k₁ k₂
    shapeCasts_S640_S1x640 broadcasts_S1x640_S400x640 shapeCasts_S512_S1x512 broadcasts_S1x512_S400x512
    bitsLt_bf16_f32 X W₁ b₁ W₂ b₂

include hd₁ hd₂ in
/-- What point `t` writes back is block `t` of rows of the two layers computed on the whole entry array. -/
theorem flushed_eq (c : Dev nD) (t : Fin cfg1.N) (b₁ : FVec Ideal S640 .f32) (b₂ : FVec Ideal S512 .f32)
    (h1 : r1 V c = shapeCast S1x640 b₁ shapeCasts_S640_S1x640)
    (h2 : r2 V c = shapeCast S1x512 b₂ shapeCasts_S512_S1x512) :
    (dat1 V c).flushed 5 t = ((cfg1.win 5).blk t).view.read (Elt Ideal)
      (Cert.Dense.twoLayer d₁ d₂ p₁ p₂ hzb g₁ g₂ k₁ k₂ (xs V c) (w1 V c) b₁ (w2 V c) b₂) := by
  show (cfg1.win 5).cut (grid1.coords t) ((dat1 V c).after 5 t) = _
  rw [after1_5]
  unfold out1_5
  rw [View.canon_unit_zero hz]
  simp only [View.ld_unit_zero (S := S400x1792) hz, View.ld_unit_zero (S := S1792x640) hz, View.ld_unit_zero (S := S1x640) hz,
    View.ld_unit_zero (S := S640x512) hz, View.ld_unit_zero (S := S1x512) hz]
  rw [blk_x, blk_w1, blk_r1, blk_w2, blk_r2, h1, h2, pay_eq d₁ hd₁ d₂ hd₂ p₁ p₂ hzb g₁ g₂ k₁ k₂ t (xs V c) (w1 V c) b₁ (w2 V c) b₂]
  obtain ⟨-, -, -, -, -, -, -, -, -, -, e0, e1⟩ := idx_facts t
  funext j
  show Cert.Dense.twoLayer d₁ d₂ p₁ p₂ hzb g₁ g₂ k₁ k₂ (xs V c) (w1 V c) b₁ (w2 V c) b₂
      ((by decide : Tiles S400x512 S50000x512 0 125).idx t j)
    = Cert.Dense.twoLayer d₁ d₂ p₁ p₂ hzb g₁ g₂ k₁ k₂ (xs V c) (w1 V c) b₁ (w2 V c) b₂ (((cfg1.win 5).blk t).view.emb j)
  refine congrArg _ ?_
  funext a; apply Fin.ext
  match a with
  | ⟨0, _⟩ => show t.val * 400 + (j 0).val = win1_5.index t (0 : Fin 2) * 400 + 1 * (j 0).val; omega
  | ⟨1, _⟩ => show (j 1).val = win1_5.index t (1 : Fin 2) * 512 + 1 * (j 1).val; omega

/-- An index of the result array is in point `t`'s block iff each coordinate is in the block's range on its axis. -/
theorem mem_blk (t : Fin cfg1.N) (i : S50000x512.Idx) :
    i ∈ ((cfg1.win 5).blk t).view.set ↔ ∀ a : Fin 2, win1_5.index t a * S400x512.size a ≤ (i a).val ∧ (i a).val < win1_5.index t a * S400x512.size a + S400x512.size a := by
  show i ∈ ((View.whole main_v36).slice (win1_5.rect t)).set ↔ _
  rw [View.set_slice_whole, Rect.mem_set_unit]
  exact Iff.rfl

/-- The blocks of rows tile the result array: row `r` is in the block of point `r / 400`. -/
theorem cover (i : S50000x512.Idx) :
    ∃ t : Fin cfg1.N, (cfg1.win 5).flush t = true ∧ i ∈ ((cfg1.win 5).blk t).view.set := by
  have hi0 : (i 0).val < 50000 := (i 0).isLt
  have hi1 : (i 1).val < 512 := (i 1).isLt
  refine ⟨⟨(i 0).val / 400, by show (i 0).val / 400 < 125; omega⟩, flush1_5 _, ?_⟩
  obtain ⟨-, -, -, -, -, -, -, -, -, -, e0, e1⟩ := idx_facts ⟨(i 0).val / 400, by show (i 0).val / 400 < 125; omega⟩
  rw [mem_blk]
  intro a
  match a with
  | ⟨0, _⟩ =>
    show win1_5.index _ (0 : Fin 2) * 400 ≤ (i 0).val ∧ (i 0).val < win1_5.index _ (0 : Fin 2) * 400 + 400
    rw [e0]; show (i 0).val / 400 * 400 ≤ (i 0).val ∧ (i 0).val < (i 0).val / 400 * 400 + 400; omega
  | ⟨1, _⟩ =>
    show win1_5.index _ (1 : Fin 2) * 512 ≤ (i 1).val ∧ (i 1).val < win1_5.index _ (1 : Fin 2) * 512 + 512
    rw [e1]; omega

include hd₁ hd₂ in
/-- THE RESULT ARRAY OF THE REGION: the two layers computed on the whole entry array, whatever the entry contents,
    when the two bias rows are the one-row matrices of vectors `b₁`, `b₂`. -/
theorem result (c : Dev nD) (b₁ : FVec Ideal S640 .f32) (b₂ : FVec Ideal S512 .f32)
    (h1 : r1 V c = shapeCast S1x640 b₁ shapeCasts_S640_S1x640)
    (h2 : r2 V c = shapeCast S1x512 b₂ shapeCasts_S512_S1x512) :
    (dat1 V c).arrAt 5 cfg1.N = Cert.Dense.twoLayer d₁ d₂ p₁ p₂ hzb g₁ g₂ k₁ k₂ (xs V c) (w1 V c) b₁ (w2 V c) b₂ :=
  (dat1 V c).arrAt_eq_of_cover 5 _ (fun t _ => flushed_eq V d₁ hd₁ d₂ hd₂ p₁ p₂ hzb g₁ g₂ k₁ k₂ c t b₁ b₂ h1 h2) cover

end Value

end Cert.KernelIdeal.Region1

end
-- ==== Proof.Stages.lean ====
import proofs.«132207_j5935644803811_1_alg».proof.Proof.Gen.KernelIdeal.Frame
import proofs.«132207_j5935644803811_1_alg».proof.Proof.Region0
import proofs.«132207_j5935644803811_1_alg».proof.Proof.Region1
import Idealize.ShloMosaic.Lib.StableHlo.Run

set_option maxRecDepth 16384

noncomputable section

/-! # The kernel program's result as one function of its arguments

The program is: host operations that gather a node's features for every edge and put the edge's own features beside
them; a region that applies two dense layers to every edge's row; host operations that add the edges' rows into their
destination nodes, divide by the number of edges that arrived (at least one) and put the node's own features beside the
mean; a second region that applies two dense layers to every node's row. Here the buffer contents at the four segment
boundaries are read back, one after the other, to the launch contents of the arguments. Changes of float format are
the identity on the extended reals, so they do not show in the result. -/

namespace Cert.KernelIdeal.Stages

open Idealize.ShloMosaic Idealize.ShloMosaic.TcCoe Idealize.SL.Sem Idealize.ShloMosaic.StableHlo
open Cert.KernelIdeal Cert.KernelIdeal.Gen

/-- The gather's index column: `edge_index[0]`, an index below zero moved up by the number of nodes. -/
def srcIdx (ei : (⟨S2x128000, .i32⟩ : BufTy).Contents (Elt Ideal)) : (⟨S128000x1, .i32⟩ : BufTy).Contents (Elt Ideal) :=
  broadcastInDim S128000x1 ![0] bcast_S128000_S128000x1_0
    (select
      (cmpi .slt (shapeCast S128000 (extractStridedSlice S1x128000 ![0, 0] ei slices_S2x128000_S1x128000_0_0) shapeCasts_S1x128000_S128000)
        (broadcastInDim S128000 ![] bcast_S_S128000 (constantI S_ 32 0#32)))
      (addi (shapeCast S128000 (extractStridedSlice S1x128000 ![0, 0] ei slices_S2x128000_S1x128000_0_0) shapeCasts_S1x128000_S128000)
        (broadcastInDim S128000 ![] bcast_S_S128000 (constantI S_ 32 50000#32)))
      (shapeCast S128000 (extractStridedSlice S1x128000 ![0, 0] ei slices_S2x128000_S1x128000_0_0) shapeCasts_S1x128000_S128000))

/-- The destination nodes: `edge_index[1]`. -/
def dstIdx (ei : (⟨S2x128000, .i32⟩ : BufTy).Contents (Elt Ideal)) : (⟨S128000, .i32⟩ : BufTy).Contents (Elt Ideal) :=
  shapeCast S128000 (extractStridedSlice S1x128000 ![1, 0] ei slices_S2x128000_S1x128000_1_0) shapeCasts_S1x128000_S128000

/-- Every edge's input row: its source node's features, then its own. -/
def edgeIn (x : (⟨S50000x512, .f32⟩ : BufTy).Contents (Elt Ideal)) (ei : (⟨S2x128000, .i32⟩ : BufTy).Contents (Elt Ideal))
    (ea : (⟨S128000x128, .f32⟩ : BufTy).Contents (Elt Ideal)) : (⟨S128000x640, .f32⟩ : BufTy).Contents (Elt Ideal) :=
  concatenate S128000x640 1
    [⟨S128000x512, Host.gather gather_S50000x512_S128000x1_S128000x512_1_0_n_n_0_1_1512 x (srcIdx ei)⟩, ⟨S128000x128, ea⟩]
    concatenates_S128000x512_S128000x128_S128000x640_d1

/-- Every node's input row: its own features, then the mean of the rows `h` of the edges that end at it (the sum over
    those edges divided by their number, or by one when there is none). -/
def nodeIn (x : (⟨S50000x512, .f32⟩ : BufTy).Contents (Elt Ideal)) (col : (⟨S128000, .i32⟩ : BufTy).Contents (Elt Ideal))
    (h : (⟨S128000x1280, .f32⟩ : BufTy).Contents (Elt Ideal)) : (⟨S50000x1792, .f32⟩ : BufTy).Contents (Elt Ideal) :=
  concatenate S50000x1792 1
    [⟨S50000x512, x⟩,
      ⟨S50000x1280,
        Host.divf (F := Ideal)
          (Host.scatterAdd (F := Ideal) scatter_S50000x1280_S128000x1_S128000x1280_1_0_0_1
            (broadcastInDim S50000x1280 ![] bcast_S_S50000x1280 (constant (F := Ideal) S_ .f32 0x00000000#32))
            (broadcastInDim S128000x1 ![0] bcast_S128000_S128000x1_0 col) h)
          (broadcastInDim S50000x1280 ![0, 1] bcast_S50000x1_S50000x1280_0_1
            (broadcastInDim S50000x1 ![0] bcast_S50000_S50000x1_0
              (maximumf
                (Host.scatterAdd (F := Ideal) scatter_S50000_S128000x1_S128000_n_0_0_1
                  (broadcastInDim S50000 ![] bcast_S_S50000 (constant (F := Ideal) S_ .f32 0x00000000#32))
                  (broadcastInDim S128000x1 ![0] bcast_S128000_S128000x1_0 col)
                  (broadcastInDim S128000 ![] bcast_S_S128000 (constant (F := Ideal) S_ .f32 0x3F800000#32)))
                (broadcastInDim S50000 ![] bcast_S_S50000 (constant (F := Ideal) S_ .f32 0x3F800000#32)))))⟩]
    concatenates_S50000x512_S50000x1280_S50000x1792_d1

variable (m : (ℓ : Loc nD τ sig) → Buf (Elt Ideal) ℓ) (ρ : Dev nD → PrngReg)

/-! ## The first region's entry contents -/

theorem entry0_x (c : Dev nD) :
    Region0.xs (V1 m ρ) c = edgeIn (m ((c : Thread nD τ).loc main_arg0)) (m ((c : Thread nD τ).loc main_arg1)) (m ((c : Thread nD τ).loc main_arg2)) := by
  show StableHlo.after hostOps0 (W0 m ρ c) (Proc.devRef .tc main_v12) = _
  after_results
  rfl

theorem entry0_w1 (c : Dev nD) : Region0.w1 (V1 m ρ) c = m ((c : Thread nD τ).loc main_arg3) := by
  show StableHlo.after hostOps0 (W0 m ρ c) (Proc.devRef .tc main_v13) = _
  after_results
  rfl

theorem entry0_w2 (c : Dev nD) : Region0.w2 (V1 m ρ) c = m ((c : Thread nD τ).loc main_arg5) := by
  show StableHlo.after hostOps0 (W0 m ρ c) (Proc.devRef .tc main_v14) = _
  after_results
  rfl

theorem entry0_r1 (c : Dev nD) :
    Region0.r1 (V1 m ρ) c = shapeCast S1x1280 (m ((c : Thread nD τ).loc main_arg4)) shapeCasts_S1280_S1x1280 := by
  show StableHlo.after hostOps0 (W0 m ρ c) (Proc.devRef .tc main_v15) = _
  after_results
  rfl

theorem entry0_r2 (c : Dev nD) :
    Region0.r2 (V1 m ρ) c = shapeCast S1x1280 (m ((c : Thread nD τ).loc main_arg6)) shapeCasts_S1280_S1x1280 := by
  show StableHlo.after hostOps0 (W0 m ρ c) (Proc.devRef .tc main_v16) = _
  after_results
  rfl

/-! ## Between the regions, and the second region's entry contents

The whole-array form of each region's two layers is stated with any records of the plain dimension numbers, any
precisions and any witnesses of its broadcasts (the regions' own results are): whoever compares the result with another
program's text passes that program's own. -/

section Whole

variable (d₁ : DotDims S128000x640 S640x1280 Region0.Hid) (hd₁ : d₁ = DotDims.plain 128000 640 1280)
  (d₂ : DotDims Region0.Hid S1280x1280 S128000x1280) (hd₂ : d₂ = DotDims.plain 128000 1280 1280)
  (p₁ p₂ : Option ContractPrecision)
  (hzb : S_.BroadcastsInDim Region0.Hid (![] : Fin 0 → Fin 2))
  (g₁ : S1280.BroadcastsInDim S1x1280 (![1] : Fin 1 → Fin 2))
  (g₂ : S1x1280.BroadcastsInDim Region0.Hid (![0, 1] : Fin 2 → Fin 2))
  (k₁ : S1280.BroadcastsInDim S1x1280 (![1] : Fin 1 → Fin 2))
  (k₂ : S1x1280.BroadcastsInDim S128000x1280 (![0, 1] : Fin 2 → Fin 2))
  (e₁ : DotDims S50000x1792 S1792x640 Region1.Hid) (he₁ : e₁ = DotDims.plain 50000 1792 640)
  (e₂ : DotDims Region1.Hid S640x512 S50000x512) (he₂ : e₂ = DotDims.plain 50000 640 512)
  (q₁ q₂ : Option ContractPrecision)
  (hzc : S_.BroadcastsInDim Region1.Hid (![] : Fin 0 → Fin 2))
  (u₁ : S640.BroadcastsInDim S1x640 (![1] : Fin 1 → Fin 2))
  (u₂ : S1x640.BroadcastsInDim Region1.Hid (![0, 1] : Fin 2 → Fin 2))
  (v₁ : S512.BroadcastsInDim S1x512 (![1] : Fin 1 → Fin 2))
  (v₂ : S1x512.BroadcastsInDim S50000x512 (![0, 1] : Fin 2 → Fin 2))

/-- Every edge's row after the first region: the first two layers of its input row. -/
def edgeOut (c : Dev nD) : (⟨S128000x1280, .f32⟩ : BufTy).Contents (Elt Ideal) :=
  Cert.Dense.twoLayer (φ₁ := .bf16) (φ₂ := .bf16) (φ₃ := .bf16) d₁ d₂ p₁ p₂ hzb g₁ g₂ k₁ k₂
    (edgeIn (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6))

include hd₁ hd₂ in
/-- The first region's result array at its exit. -/
theorem mid_h (c : Dev nD) : W2 m ρ c (Proc.devRef .tc main_v17) = edgeOut m d₁ d₂ p₁ p₂ hzb g₁ g₂ k₁ k₂ c := by
  refine (W2_arr m ρ c 5).trans ?_
  rw [Region0.result (V1 m ρ) d₁ hd₁ d₂ hd₂ p₁ p₂ hzb g₁ g₂ k₁ k₂ c _ _ (entry0_r1 m ρ c) (entry0_r2 m ρ c),
    entry0_x, entry0_w1, entry0_w2]
  rfl

/-- The destination indices, untouched by the first region. -/
theorem mid_col (c : Dev nD) : W2 m ρ c (Proc.devRef .tc main_v3) = dstIdx (m ((c : Thread nD τ).loc main_arg1)) := by
  rw [W2_of_ne m ρ c main_v3 (by decide)]
  show StableHlo.after hostOps0 (W0 m ρ c) (Proc.devRef .tc main_v3) = _
  after_results
  rfl

theorem mid_arg0 (c : Dev nD) : W2 m ρ c (Proc.devRef .tc main_arg0) = (m ((c : Thread nD τ).loc main_arg0)) := by
  rw [W2_of_ne m ρ c main_arg0 (by decide)]
  show StableHlo.after hostOps0 (W0 m ρ c) (Proc.devRef .tc main_arg0) = _
  after_results
theorem mid_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results
theorem mid_arg8 (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results
theorem mid_arg9 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results
theorem mid_arg10 (c : Dev nD) : W2 m ρ c (Proc.devRef .tc main_arg10) = (m ((c : Thread nD τ).loc main_arg10)) := by
  rw [W2_of_ne m ρ c main_arg10 (by decide)]
  show StableHlo.after hostOps0 (W0 m ρ c) (Proc.devRef .tc main_arg10) = _
  after_results

include hd₁ hd₂ in
set_option maxHeartbeats 8000000 in
theorem entry1_x (c : Dev nD) :
    Region1.xs (V3 m ρ) c = nodeIn (m ((c : Thread nD τ).loc main_arg0)) (dstIdx (m ((c : Thread nD τ).loc main_arg1))) (edgeOut m d₁ d₂ p₁ p₂ hzb g₁ g₂ k₁ k₂ c) := by
  show StableHlo.after hostOps1 (W2 m ρ c) (Proc.devRef .tc main_v31) = _
  after_results
  rw [mid_arg0, mid_col, mid_h m ρ d₁ hd₁ d₂ hd₂ p₁ p₂ hzb g₁ g₂ k₁ k₂ c]
  rfl

set_option maxHeartbeats 4000000 in
theorem entry1_w1 (c : Dev nD) : Region1.w1 (V3 m ρ) c = (m ((c : Thread nD τ).loc main_arg7)) := by
  show StableHlo.after hostOps1 (W2 m ρ c) (Proc.devRef .tc main_v32) = _
  after_results
  rw [mid_arg7]
  rfl

set_option maxHeartbeats 4000000 in
theorem entry1_w2 (c : Dev nD) : Region1.w2 (V3 m ρ) c = (m ((c : Thread nD τ).loc main_arg9)) := by
  show StableHlo.after hostOps1 (W2 m ρ c) (Proc.devRef .tc main_v33) = _
  after_results
  rw [mid_arg9]
  rfl

set_option maxHeartbeats 4000000 in
theorem entry1_r1 (c : Dev nD) :
    Region1.r1 (V3 m ρ) c = shapeCast S1x640 (m ((c : Thread nD τ).loc main_arg8)) shapeCasts_S640_S1x640 := by
  show StableHlo.after hostOps1 (W2 m ρ c) (Proc.devRef .tc main_v34) = _
  after_results
  rw [mid_arg8]
  rfl

set_option maxHeartbeats 4000000 in
theorem entry1_r2 (c : Dev nD) :
    Region1.r2 (V3 m ρ) c = shapeCast S1x512 (m ((c : Thread nD τ).loc main_arg10)) shapeCasts_S512_S1x512 := by
  show StableHlo.after hostOps1 (W2 m ρ c) (Proc.devRef .tc main_v35) = _
  after_results
  rw [mid_arg10]
  rfl

/-- Every node's row after the second region: the last two layers of its input row. -/
def nodeOut (c : Dev nD) : (⟨S50000x512, .f32⟩ : BufTy).Contents (Elt Ideal) :=
  Cert.Dense.twoLayer (φ₁ := .bf16) (φ₂ := .bf16) (φ₃ := .bf16) e₁ e₂ q₁ q₂ hzc u₁ u₂ v₁ v₂
    (nodeIn (m ((c : Thread nD τ).loc main_arg0)) (dstIdx (m ((c : Thread nD τ).loc main_arg1))) (edgeOut m d₁ d₂ p₁ p₂ hzb g₁ g₂ k₁ k₂ c))
    (m ((c : Thread nD τ).loc main_arg7)) (m ((c : Thread nD τ).loc main_arg8)) (m ((c : Thread nD τ).loc main_arg9)) (m ((c : Thread nD τ).loc main_arg10))

include hd₁ hd₂ he₁ he₂ in
/-- THE RESULT: the program's result array at the last segment boundary, as one function of the launch contents of its
    arguments. -/
theorem result (c : Dev nD) :
    W4 m ρ c (Proc.devRef .tc main_v36)
      = nodeOut m d₁ d₂ p₁ p₂ hzb g₁ g₂ k₁ k₂ e₁ e₂ q₁ q₂ hzc u₁ u₂ v₁ v₂ c := by
  refine (W4_arr m ρ c 5).trans ?_
  rw [Region1.result (V3 m ρ) e₁ he₁ e₂ he₂ q₁ q₂ hzc u₁ u₂ v₁ v₂ c _ _ (entry1_r1 m ρ c) (entry1_r2 m ρ c),
    entry1_x m ρ d₁ hd₁ d₂ hd₂ p₁ p₂ hzb g₁ g₂ k₁ k₂ c, entry1_w1, entry1_w2]
  rfl

end Whole

end Cert.KernelIdeal.Stages

end
-- ==== Proof.lean ====
/- The kernel gathers a source node's features for every edge, puts the edge's own features beside them, applies two dense
   layers with a rectifier between them to every edge's row, takes for every node the mean of the rows of the edges that end
   at it (the sum divided by their number, or by one when there is none), puts the node's own features before the mean and
   applies two more dense layers to every node's row. The reference does the same with whole-array host operations; the
   kernel runs each pair of dense layers as a region over blocks of rows (250 blocks of 512 edges, 125 blocks of 400 nodes)
   with matrix-unit products, and rounds the layers' inputs to a narrower float format first.

   On the extended reals the two programs compute the same function, with no condition on the inputs: a change of float
   format is the identity; a dense layer works row by row, so the layers computed on a block of rows are the block of rows
   of the layers computed on the whole array (Proof/Dense.lean, over the row-block lemmas), and each region's blocks tile
   its result (Proof/Region0.lean, Proof/Region1.lean); a matrix-unit product into a zero accumulator
   and a host product are the same sum. The gather, the two scatter-additions and the quotient are the same operations on
   both sides and are never opened. Proof/Stages.lean reads the kernel program's result back through its four segments
   to one function of the arguments, stated with the reference's own dimension records; that function and the reference
   run's term are then the same term. -/
import proofs.«132207_j5935644803811_1_alg».proof.Defs
import proofs.«132207_j5935644803811_1_alg».proof.Proof.Gen.Kernel
import proofs.«132207_j5935644803811_1_alg».proof.Proof.Gen.Kernel.Skeleton
import proofs.«132207_j5935644803811_1_alg».proof.Proof.Gen.Kernel.Launch
import proofs.«132207_j5935644803811_1_alg».proof.Proof.Gen.Kernel.Points
import proofs.«132207_j5935644803811_1_alg».proof.Proof.Gen.Kernel.Frame
import proofs.«132207_j5935644803811_1_alg».proof.Proof.Gen.KernelIdeal
import proofs.«132207_j5935644803811_1_alg».proof.Proof.Gen.KernelIdeal.Skeleton
import proofs.«132207_j5935644803811_1_alg».proof.Proof.Gen.KernelIdeal.Launch
import proofs.«132207_j5935644803811_1_alg».proof.Proof.Gen.KernelIdeal.Points
import proofs.«132207_j5935644803811_1_alg».proof.Proof.Gen.KernelIdeal.Frame
import proofs.«132207_j5935644803811_1_alg».proof.Proof.Gen.ReferenceIdeal
import proofs.«132207_j5935644803811_1_alg».proof.Proof.Gen.ReferenceIdeal.Run
import proofs.«132207_j5935644803811_1_alg».proof.Proof.Gen.Pre_finite_inputs
import proofs.«132207_j5935644803811_1_alg».proof.Proof.KernelRun
import proofs.«132207_j5935644803811_1_alg».proof.Proof.Stages
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same result: the kernel's read back through its segments, the reference's the term its
    run composes, of arguments that agree. -/
theorem algebraic : Cert.algebraic_KernelIdeal_ReferenceIdeal := by
  intro m ρ m' ρ' _ hagree
  refine ⟨fun c => Cert.KernelIdeal.Gen.W4 m ρ c (Proc.devRef .tc Cert.KernelIdeal.main_v36), Cert.KernelIdeal.Gen.run_named m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  -- the kernel's result, stated with the reference's records for the four products and its witnesses for the broadcasts
  -- of the biases and of the rectifier's zero
  rw [a0, a1, a2, a3, a4, a5, a6, a7, a8, a9, a10]
  refine Eq.trans ?_ (Cert.KernelIdeal.Stages.result m ρ
      Cert.ReferenceIdeal.dot_S128000x640_S640x1280_S128000x1280_1_0_0_1_n_n rfl
      Cert.ReferenceIdeal.dot_S128000x1280_S1280x1280_S128000x1280_1_0_0_1_n_n rfl none none
      Cert.ReferenceIdeal.Gen.bcast_S_S128000x1280 Cert.ReferenceIdeal.Gen.bcast_S1280_S1x1280_1 Cert.ReferenceIdeal.Gen.bcast_S1x1280_S128000x1280_0_1
      Cert.ReferenceIdeal.Gen.bcast_S1280_S1x1280_1 Cert.ReferenceIdeal.Gen.bcast_S1x1280_S128000x1280_0_1
      Cert.ReferenceIdeal.dot_S50000x1792_S1792x640_S50000x640_1_0_0_1_n_n rfl
      Cert.ReferenceIdeal.dot_S50000x640_S640x512_S50000x512_1_0_0_1_n_n rfl none none
      Cert.ReferenceIdeal.Gen.bcast_S_S50000x640 Cert.ReferenceIdeal.Gen.bcast_S640_S1x640_1 Cert.ReferenceIdeal.Gen.bcast_S1x640_S50000x640_0_1
      Cert.ReferenceIdeal.Gen.bcast_S512_S1x512_1 Cert.ReferenceIdeal.Gen.bcast_S1x512_S50000x512_0_1 c).symm
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
